-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : IVec S1x1600000 32 := (extractStridedSlice S1x1600000 ![0, 0] · slices_S2x1600000_S1x1600000_0_0) main_arg1
  let main_v55 : IVec S1600000 32 := shapeCast S1600000 main_v54 shapeCasts_S1x1600000_S1600000
  let main_c_20 : IVec S_ 32 := constantI S_ 32 4294867296#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![0, 0] · slices_S2x1600000_S1x1600000_0_0) main_arg1
  let main_v59 : IVec S1600000 32 := shapeCast S1600000 main_v58 shapeCasts_S1x1600000_S1600000
  let main_c_21 : IVec S_ 32 := constantI S_ 32 100000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg1 : IVec S2x1600000 32) (main_arg9 : FVec F S3x128 .f32) (main_arg10 : FVec F S3x128 .f32) (main_arg11 : FVec F S3x128x128 .f32) (main_arg12 : FVec F S3x128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128x128 .f32 := Host.absf main_arg11
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg1 main_v48 main_v49 main_v50

def fn_part1 {F : FTy → Type} [FloatOps F] (main_arg1 : IVec S2x1600000 32) (main_arg6 : FVec F S128 .f32) (main_arg7 : FVec F S3x128x128 .f32) (main_arg8 : FVec F S3x128 .f32) (main_arg9 : FVec F S3x128 .f32) (main_arg10 : FVec F S3x128 .f32) (main_arg11 : FVec F S3x128x128 .f32) (main_arg12 : FVec F S3x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S3x128x128 .f32) (main_arg8 : FVec F S3x128 .f32) (main_arg9 : FVec F S3x128 .f32) (main_arg10 : FVec F S3x128 .f32) (main_arg11 : FVec F S3x128x128 .f32) (main_arg12 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128x128 : Shape := ⟨3, ![1, 128, 128]⟩
abbrev S512x128 : Shape := ⟨2, ![512, 128]⟩
abbrev S100000x1 : Shape := ⟨2, ![100000, 1]⟩

abbrev nBuf : Space → Nat
  | .hbm => 169
  | .vmem => 48
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S3x128x128, .f32⟩
  | 12 => ⟨S3x128, .f32⟩
  | 13 => ⟨S1x1600000, .i32⟩
  | 14 => ⟨S1600000, .i32⟩
  | 15 => ⟨S1x1600000, .i32⟩
  | 16 => ⟨S1600000, .i32⟩
  | 17 => ⟨S128x128, .f32⟩
  | 18 => ⟨S1x128, .f32⟩
  | 19 => ⟨S100000x128, .f32⟩
  | 20 => ⟨S_, .f32⟩
  | 21 => ⟨S_, .f32⟩
  | 22 => ⟨S3x128, .f32⟩
  | 23 => ⟨S3x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1, .i32⟩
  | 33 => ⟨S_, .i32⟩
  | 34 => ⟨S1600000x1, .i32⟩
  | 35 => ⟨S1600000x1, .i1⟩
  | 36 => ⟨S1x1, .i32⟩
  | 37 => ⟨S1600000x1, .i32⟩
  | 38 => ⟨S1600000x1, .i1⟩
  | 39 => ⟨S1600000x1, .i1⟩
  | 40 => ⟨S_, .i1⟩
  | 41 => ⟨S1600000, .i1⟩
  | 42 => ⟨S1600000x128, .f32⟩
  | 43 => ⟨S1600000x128, .i1⟩
  | 44 => ⟨S_, .f32⟩
  | 45 => ⟨S1600000x128, .f32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S1x128x128, .f32⟩
  | 52 => ⟨S128x128, .f32⟩
  | 53 => ⟨S128x128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128x128, .f32⟩
  | 61 => ⟨S128x128, .f32⟩
  | 62 => ⟨S128x128, .f32⟩
  | 63 => ⟨S1x128, .f32⟩
  | 64 => ⟨S128, .f32⟩
  | 65 => ⟨S1x128, .f32⟩
  | 66 => ⟨S1x128, .f32⟩
  | 67 => ⟨S1x128, .f32⟩
  | 68 => ⟨S1x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1, .i32⟩
  | 79 => ⟨S_, .i32⟩
  | 80 => ⟨S1600000x1, .i32⟩
  | 81 => ⟨S1600000x1, .i1⟩
  | 82 => ⟨S1x1, .i32⟩
  | 83 => ⟨S1600000x1, .i32⟩
  | 84 => ⟨S1600000x1, .i1⟩
  | 85 => ⟨S1600000x1, .i1⟩
  | 86 => ⟨S_, .i1⟩
  | 87 => ⟨S1600000, .i1⟩
  | 88 => ⟨S1600000x128, .f32⟩
  | 89 => ⟨S1600000x128, .i1⟩
  | 90 => ⟨S_, .f32⟩
  | 91 => ⟨S1600000x128, .f32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S1x128x128, .f32⟩
  | 98 => ⟨S128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128x128, .f32⟩
  | 107 => ⟨S128x128, .f32⟩
  | 108 => ⟨S128x128, .f32⟩
  | 109 => ⟨S1x128, .f32⟩
  | 110 => ⟨S128, .f32⟩
  | 111 => ⟨S1x128, .f32⟩
  | 112 => ⟨S1x128, .f32⟩
  | 113 => ⟨S1x128, .f32⟩
  | 114 => ⟨S1x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1, .i32⟩
  | 125 => ⟨S_, .i32⟩
  | 126 => ⟨S1600000x1, .i32⟩
  | 127 => ⟨S1600000x1, .i1⟩
  | _ => ⟨S100000x128, .f32⟩

abbrev hbmTy0_1 (i : Nat) : BufTy := match i % 128 with
  | 0 => ⟨S1x1, .i32⟩
  | 1 => ⟨S1600000x1, .i32⟩
  | 2 => ⟨S1600000x1, .i1⟩
  | 3 => ⟨S1600000x1, .i1⟩
  | 4 => ⟨S_, .i1⟩
  | 5 => ⟨S1600000, .i1⟩
  | 6 => ⟨S1600000x128, .f32⟩
  | 7 => ⟨S1600000x128, .i1⟩
  | 8 => ⟨S_, .f32⟩
  | 9 => ⟨S1600000x128, .f32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S1x128x128, .f32⟩
  | 16 => ⟨S128x128, .f32⟩
  | 17 => ⟨S128x128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128x128, .f32⟩
  | 25 => ⟨S128x128, .f32⟩
  | 26 => ⟨S128x128, .f32⟩
  | 27 => ⟨S1x128, .f32⟩
  | 28 => ⟨S128, .f32⟩
  | 29 => ⟨S1x128, .f32⟩
  | 30 => ⟨S1x128, .f32⟩
  | 31 => ⟨S1x128, .f32⟩
  | 32 => ⟨S1x128, .f32⟩
  | 33 => ⟨S100000x128, .f32⟩
  | 34 => ⟨S128x128, .f32⟩
  | 35 => ⟨S1x128, .f32⟩
  | 36 => ⟨S100000x128, .f32⟩
  | 37 => ⟨S_, .f32⟩
  | 38 => ⟨S512x128, .f32⟩
  | 39 => ⟨S100000x1, .i32⟩
  | 40 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v10 : Ref sig .tc := ⟨.hbm, 46, rfl⟩
abbrev main_cst_0 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v33 : Ref sig .tc := ⟨.hbm, 92, rfl⟩
abbrev main_cst_1 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_call2_c : Ref sig .tc := ⟨.hbm, 116, rfl⟩
abbrev main_call2_v0 : Ref sig .tc := ⟨.hbm, 117, rfl⟩
abbrev main_call2_v1 : Ref sig .tc := ⟨.hbm, 118, rfl⟩
abbrev main_call2_c_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_c_1 : Ref sig .tc := ⟨.hbm, 124, rfl⟩
abbrev main_call2_c_2 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_3 : Ref sig .tc := ⟨.hbm, 132, rfl⟩
abbrev main_call2_v12 : Ref sig .tc := ⟨.hbm, 133, rfl⟩
abbrev main_call2_v13 : Ref sig .tc := ⟨.hbm, 134, rfl⟩
abbrev main_call2_v14 : Ref sig .tc := ⟨.hbm, 135, rfl⟩
abbrev main_call2_cst : Ref sig .tc := ⟨.hbm, 136, rfl⟩
abbrev main_call2_v15 : Ref sig .tc := ⟨.hbm, 137, rfl⟩
abbrev main_v56 : Ref sig .tc := ⟨.hbm, 138, rfl⟩
abbrev main_cst_2 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_cst_3 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem8_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S3x128 : S_.BroadcastsInDim S3x128 (![] : Fin 0 → Fin S3x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S512x128 : Shape := ⟨2, ![512, 128]⟩
abbrev S100000x1 : Shape := ⟨2, ![100000, 1]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S3x128x128, .f32⟩
  | 12 => ⟨S3x128, .f32⟩
  | 13 => ⟨S1x1600000, .i32⟩
  | 14 => ⟨S1600000, .i32⟩
  | 15 => ⟨S1x1600000, .i32⟩
  | 16 => ⟨S1600000, .i32⟩
  | 17 => ⟨S128x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .f32⟩
  | 26 => ⟨S_, .f32⟩
  | 27 => ⟨S3x128, .f32⟩
  | 28 => ⟨S3x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S1x128x128, .f32⟩
  | 44 => ⟨S128x128, .f32⟩
  | 45 => ⟨S128x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S1x128x128, .f32⟩
  | 66 => ⟨S128x128, .f32⟩
  | 67 => ⟨S128x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S1x128x128, .f32⟩
  | 89 => ⟨S128x128, .f32⟩
  | 90 => ⟨S128x128, .f32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S1x128x128, .f32⟩
  | 111 => ⟨S128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S100000x128, .f32⟩
  | 5 => ⟨S1x128x128, .f32⟩
  | 6 => ⟨S128x128, .f32⟩
  | 7 => ⟨S128x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S128x128, .f32⟩
  | 30 => ⟨S100000x128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S128x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S512x128, .f32⟩
  | 43 => ⟨S100000x1, .i32⟩
  | 44 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_2 : Ref sig .tc := ⟨.hbm, 74, rfl⟩
abbrev main_v53 : Ref sig .tc := ⟨.hbm, 75, rfl⟩
abbrev main_v54 : Ref sig .tc := ⟨.hbm, 76, rfl⟩
abbrev main_c_3 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_call2_cst : Ref sig .tc := ⟨.hbm, 107, rfl⟩
abbrev main_call2_v0 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_5 : Ref sig .tc := ⟨.hbm, 119, rfl⟩
abbrev main_v93 : Ref sig .tc := ⟨.hbm, 120, rfl⟩
abbrev main_v94 : Ref sig .tc := ⟨.hbm, 121, rfl⟩
abbrev main_c_6 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_7 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_call3_cst : Ref sig .tc := ⟨.hbm, 152, rfl⟩
abbrev main_call3_v0 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_8 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S3x128 : S_.BroadcastsInDim S3x128 (![] : Fin 0 → Fin S3x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.Spec.lean ====
/-
  What one layer of the network does to one row, as plain sums over the extended reals.

  A row `xr` of 128 entries, a 128 × 128 matrix `w` and a bias row `b` give the row
  `c ↦ (∑ k, xr k · w[k, c]) + b[0, c]` (`linRow`).  The input transform takes the maximum of that with zero;
  the output transform is `linRow` itself.  A graph-convolution layer adds the aggregated neighbour row to the node's
  own row, applies `linRow` with the first weight matrix, scales and shifts entrywise by the normalisation's two rows,
  takes the maximum with zero, and applies `linRow` with the second weight matrix (`ginRow`).  Lifted to arrays of
  `n` rows, row `r` of the result depends on row `r` of the operands only: that is what lets a tiling by row blocks
  compute the same array as one whole-array product.
-/
import Idealize.ShloMosaic.PureOps.Ideal
import Idealize.ShloMosaic.Lib.ValueIdx

noncomputable section

namespace Cert.Gin

open Idealize.ShloMosaic Idealize.ShloMosaic.ValueIdx

/-- An array of `n` rows of 128 entries. -/
abbrev Rows (n : ℕ) : Shape := ⟨2, ![n, 128]⟩

/-- The zero both programs compare with: the word `0x00000000` read as an extended real. -/
def zeroE : EReal := Ideal.ofBits .f32 0x00000000#32

/-- Row `r` of an array. -/
def rowOf {n : ℕ} (X : FVec Ideal (Rows n) .f32) (r : Fin n) : Fin 128 → EReal := fun k => X (ix2 r k)

/-- A row times a matrix, plus a bias row: entry `c`. -/
def linRow (xr : Fin 128 → EReal) (w : FVec Ideal (Rows 128) .f32) (b : FVec Ideal (⟨2, ![1, 128]⟩ : Shape) .f32)
    (c : Fin 128) : EReal :=
  (∑ k : Fin 128, xr k * w (ix2 k c)) + b (ix2 0 c)

/-- One graph-convolution layer on one row: the node's row plus its neighbours' sum, a linear map, the
    normalisation's scale and shift, the maximum with zero, a second linear map. -/
def ginRow (hr ar : Fin 128 → EReal) (w1 : FVec Ideal (Rows 128) .f32) (b1 sc be : FVec Ideal (⟨2, ![1, 128]⟩ : Shape) .f32)
    (w2 : FVec Ideal (Rows 128) .f32) (b2 : FVec Ideal (⟨2, ![1, 128]⟩ : Shape) .f32) (c : Fin 128) : EReal :=
  linRow (fun k => max (linRow (fun j => hr j + ar j) w1 b1 k * sc (ix2 0 k) + be (ix2 0 k)) zeroE) w2 b2 c

/-- The input transform on an array: every row through `linRow`, then the maximum with zero. -/
def LinRelu {n : ℕ} (X : FVec Ideal (Rows n) .f32) (w : FVec Ideal (Rows 128) .f32)
    (b : FVec Ideal (⟨2, ![1, 128]⟩ : Shape) .f32) : FVec Ideal (Rows n) .f32 :=
  fun i => max (linRow (rowOf X (i 0)) w b (i 1)) zeroE

/-- The output transform on an array: every row through `linRow`. -/
def Lin {n : ℕ} (X : FVec Ideal (Rows n) .f32) (w : FVec Ideal (Rows 128) .f32)
    (b : FVec Ideal (⟨2, ![1, 128]⟩ : Shape) .f32) : FVec Ideal (Rows n) .f32 :=
  fun i => linRow (rowOf X (i 0)) w b (i 1)

/-- A graph-convolution layer on arrays: row `r` of the result is `ginRow` of row `r` of the node array and of the
    aggregated array. -/
def Gin {n : ℕ} (H A : FVec Ideal (Rows n) .f32) (w1 : FVec Ideal (Rows 128) .f32)
    (b1 sc be : FVec Ideal (⟨2, ![1, 128]⟩ : Shape) .f32) (w2 : FVec Ideal (Rows 128) .f32)
    (b2 : FVec Ideal (⟨2, ![1, 128]⟩ : Shape) .f32) : FVec Ideal (Rows n) .f32 :=
  fun i => ginRow (rowOf H (i 0)) (rowOf A (i 0)) w1 b1 sc be w2 b2 (i 1)

theorem LinRelu_apply {n : ℕ} (X : FVec Ideal (Rows n) .f32) (w : FVec Ideal (Rows 128) .f32)
    (b : FVec Ideal (⟨2, ![1, 128]⟩ : Shape) .f32) (r : Fin n) (c : Fin 128) :
    LinRelu X w b (ix2 r c) = max (linRow (rowOf X r) w b c) zeroE := rfl

theorem Lin_apply {n : ℕ} (X : FVec Ideal (Rows n) .f32) (w : FVec Ideal (Rows 128) .f32)
    (b : FVec Ideal (⟨2, ![1, 128]⟩ : Shape) .f32) (r : Fin n) (c : Fin 128) :
    Lin X w b (ix2 r c) = linRow (rowOf X r) w b c := rfl

theorem Gin_apply {n : ℕ} (H A : FVec Ideal (Rows n) .f32) (w1 : FVec Ideal (Rows 128) .f32)
    (b1 sc be : FVec Ideal (⟨2, ![1, 128]⟩ : Shape) .f32) (w2 : FVec Ideal (Rows 128) .f32)
    (b2 : FVec Ideal (⟨2, ![1, 128]⟩ : Shape) .f32) (r : Fin n) (c : Fin 128) :
    Gin H A w1 b1 sc be w2 b2 (ix2 r c) = ginRow (rowOf H r) (rowOf A r) w1 b1 sc be w2 b2 c := rfl

end Cert.Gin

end
-- ==== Proof.KPay.lean ====
/-
  What each kernel body stores, at one entry of its 5000 × 128 block.

  Every body multiplies its block of rows by a 128 × 128 matrix (after a change of float format, which is the identity
  at the ideal values), into a zero accumulator, and adds a bias row laid down the block; so entry `(p, q)` is
  `linRow` of row `p` of the block.  The input transform then takes the maximum with zero; a graph-convolution body
  first adds the two blocks it loads, and between its two products scales, shifts and takes the maximum with zero.
-/
import proofs.«427842_j14078902796336_1_alg».proof.Proof.Gen.KernelIdeal.Skeleton
import proofs.«427842_j14078902796336_1_alg».proof.Proof.Spec
import Idealize.ShloMosaic.PureOps.Ideal.Laws
import Idealize.ShloMosaic.Lib.Pipeline.Value
import Idealize.ShloMosaic.Lib.ValueLayout

noncomputable section

namespace Cert.Gin.KPay

open Idealize.ShloMosaic Idealize.ShloMosaic.ValueIdx Cert.KernelIdeal Cert.KernelIdeal.Gen Cert.Gin

/-- Along the rows' axis the left operand of the product is read at the output's row. -/
private theorem lhs_dot_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Along its columns' axis the left operand is read at the summation index. -/
private theorem lhs_dot_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- Along its rows' axis the right operand is read at the summation index. -/
private theorem rhs_dot_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- Along its columns' axis the right operand is read at the output's column. -/
private theorem rhs_dot_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a matrix, accumulated into zero: entry `(p, q)` is the sum over `k` of the block's
    `(p, k)` entry times the matrix's `(k, q)` entry, whatever the two operands' float formats. -/
private theorem mm_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A block of rows times a matrix into zero, plus a bias row laid down the block: entry `(p, q)` is `linRow` of
    row `p` of the block.  The change of float format before the product is the identity on extended reals. -/
private theorem lin_apply (x : FVec Ideal S5000x128 .f32) (w : FVec Ideal S128x128 .f32) (b : FVec Ideal S1x128 .f32)
    (p : Fin 5000) (q : Fin 128) :
    addf (matmul dot_S5000x128_S128x128_S5000x128_1_0_0_1_n_n none (truncf .bf16 x bitsLt_bf16_f32) (truncf .bf16 w bitsLt_bf16_f32)
        (constant (F := Ideal) S5000x128 .f32 0x00000000#32))
      (broadcastTo S5000x128 b broadcasts_S1x128_S5000x128) (ix2 p q) = linRow (rowOf x p) w b q := by
  refine (addf_apply _ _ _).trans ?_
  rw [mm_apply, broadcastTo_1b_ab_apply]
  rfl

/-- The input transform's stored value at `(p, q)`. -/
theorem pay0_apply (x : FVec Ideal S5000x128 .f32) (w : FVec Ideal S128x128 .f32) (b : FVec Ideal S1x128 .f32)
    (p : Fin 5000) (q : Fin 128) :
    k0_pay1 (F := Ideal) x w b (ix2 p q) = max (linRow (rowOf x p) w b q) zeroE := by
  unfold k0_pay1
  simp only [shapeCast_self]
  refine (maximumf_apply _ _ _).trans ?_
  exact congrArg₂ max (lin_apply x w b p q) rfl

/-- The output transform's stored value at `(p, q)`. -/
theorem pay4_apply (x : FVec Ideal S5000x128 .f32) (w : FVec Ideal S128x128 .f32) (b : FVec Ideal S1x128 .f32)
    (p : Fin 5000) (q : Fin 128) :
    k4_pay1 (F := Ideal) x w b (ix2 p q) = linRow (rowOf x p) w b q := by
  unfold k4_pay1
  simp only [shapeCast_self]
  exact lin_apply x w b p q

/-- A graph-convolution body's stored value at `(p, q)`. -/
theorem pay1_apply (h a : FVec Ideal S5000x128 .f32) (w1 : FVec Ideal S128x128 .f32) (b1 sc be : FVec Ideal S1x128 .f32)
    (w2 : FVec Ideal S128x128 .f32) (b2 : FVec Ideal S1x128 .f32) (p : Fin 5000) (q : Fin 128) :
    k1_pay1 (F := Ideal) h a w1 b1 sc be w2 b2 (ix2 p q) = ginRow (rowOf h p) (rowOf a p) w1 b1 sc be w2 b2 q := by
  unfold k1_pay1
  simp only [shapeCast_self]
  -- the second product: `linRow` of row `p` of what the first stretch leaves
  refine (lin_apply _ w2 b2 p q).trans ?_
  refine congrArg (fun r => linRow r w2 b2 q) (funext fun k => ?_)
  -- that row's entry `k`: the maximum with zero of the scaled and shifted first product
  refine (maximumf_apply _ _ (ix2 p k)).trans ?_
  refine congrArg₂ max ?_ rfl
  refine (addf_apply _ _ _).trans ?_
  rw [broadcastTo_1b_ab_apply]
  refine congrArg (· + be (ix2 0 k)) ?_
  refine (mulf_apply _ _ _).trans ?_
  rw [broadcastTo_1b_ab_apply]
  refine congrArg (· * sc (ix2 0 k)) ?_
  exact lin_apply (addf h a) w1 b1 p k

/-- The second and third layers' bodies are the first's, operation for operation. -/
theorem pay2_apply (h a : FVec Ideal S5000x128 .f32) (w1 : FVec Ideal S128x128 .f32) (b1 sc be : FVec Ideal S1x128 .f32)
    (w2 : FVec Ideal S128x128 .f32) (b2 : FVec Ideal S1x128 .f32) (p : Fin 5000) (q : Fin 128) :
    k2_pay1 (F := Ideal) h a w1 b1 sc be w2 b2 (ix2 p q) = ginRow (rowOf h p) (rowOf a p) w1 b1 sc be w2 b2 q :=
  pay1_apply h a w1 b1 sc be w2 b2 p q

theorem pay3_apply (h a : FVec Ideal S5000x128 .f32) (w1 : FVec Ideal S128x128 .f32) (b1 sc be : FVec Ideal S1x128 .f32)
    (w2 : FVec Ideal S128x128 .f32) (b2 : FVec Ideal S1x128 .f32) (p : Fin 5000) (q : Fin 128) :
    k3_pay1 (F := Ideal) h a w1 b1 sc be w2 b2 (ix2 p q) = ginRow (rowOf h p) (rowOf a p) w1 b1 sc be w2 b2 q :=
  pay1_apply h a w1 b1 sc be w2 b2 p q

end Cert.Gin.KPay

end
-- ==== Proof.KFinal0.lean ====
/-
  The input transform's call, read as an array.  Its grid has twenty points; point `t` loads rows `5000·t … 5000·t + 4999` of
  the feature array, the transposed weight matrix and the bias row whole, and stores the maximum with zero of `linRow` of
  each loaded row.  The twenty blocks tile the 100000 rows: the output array after the call is `LinRelu` of the arrays
  the call found.
-/
import proofs.«427842_j14078902796336_1_alg».proof.Proof.Gen.KernelIdeal.Frame
import proofs.«427842_j14078902796336_1_alg».proof.Proof.KPay

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gin

variable (V : (c : Dev nD) → (b : Ref sig .tc) → Buf (Elt Ideal) ((c : Thread nD τ).loc b))

/-- The offsets of an access to a whole block are zero on both axes. -/
private theorem offsets_zero0 : (![0, 0] : Fin 2 → Nat) = fun _ => 0 := funext fun a => by fin_cases a <;> rfl

/-- The block index maps over the twenty points: the block of rows and the output block sit at block row `t`, block
    column 0; the weight matrix and the bias row are their arrays' one block. -/
private theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the block of rows at point `t` is entry `(5000·t + p, k)` of the array. -/
private theorem rows_block0 (c : Dev nD) (t : Fin cfg0.N) (ht : t.val < 20) (p : Fin 5000) (k : Fin 128) :
    (iblk0 V c 0 t : FVec Ideal S5000x128 .f32) (ix2 p k)
      = (V c main_arg0 : FVec Ideal S100000x128 .f32) (ix2 ⟨5000 * t.val + p.val, by omega⟩ k) := by
  obtain ⟨e0, e1, -⟩ := block_index0 t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weight matrix's block at any point is the whole matrix. -/
private theorem weights_block0 (c : Dev nD) (t : Fin cfg0.N) :
    (iblk0 V c 1 t : FVec Ideal S128x128 .f32) = V c main_v4 := by
  obtain ⟨-, -, e0, e1, -⟩ := block_index0 t
  funext y
  unfold iblk0
  rw [View.read_apply]
  show V c main_v4 _ = V c main_v4 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block at any point is the whole row. -/
private theorem bias_block0 (c : Dev nD) (t : Fin cfg0.N) :
    (iblk0 V c 2 t : FVec Ideal S1x128 .f32) = V c main_v5 := by
  obtain ⟨-, -, -, -, e0, e1, -⟩ := block_index0 t
  funext y
  unfold iblk0
  rw [View.read_apply]
  show V c main_v5 _ = V c main_v5 y
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What a point stores at `(p, q)`, once its three blocks are read off the arrays: the input transform of the arrays
    at row `5000·t + p`. -/
private theorem stored_eq0 (X : FVec Ideal S100000x128 .f32) (W : FVec Ideal S128x128 .f32) (B : FVec Ideal S1x128 .f32)
    (x : FVec Ideal S5000x128 .f32) (w : FVec Ideal S128x128 .f32) (b : FVec Ideal S1x128 .f32) (t : ℕ) (ht : t < 20)
    (hx : ∀ (p : Fin 5000) (k : Fin 128), x (ix2 p k) = X (ix2 ⟨5000 * t + p.val, by omega⟩ k))
    (hw : w = W) (hb : b = B) (p : Fin 5000) (q : Fin 128) :
    k0_pay1 (F := Ideal) x w b (ix2 p q) = LinRelu X W B (ix2 ⟨5000 * t + p.val, by omega⟩ q) := by
  subst hw hb
  refine (KPay.pay0_apply x w b p q).trans ?_
  rw [LinRelu_apply]
  have hrow : rowOf x p = rowOf X ⟨5000 * t + p.val, by omega⟩ := funext fun k => hx p k
  rw [hrow]

/-- What point `t` writes back is its block of the input transform of the arrays the call found. -/
private theorem flushed0_eq (c : Dev nD) (t : Fin cfg0.N) :
    (dat0 (F := Ideal) V c).flushed 3 t
      = ((cfg0.win 3).blk t).view.read (Elt Ideal) (LinRelu (V c main_arg0) (V c main_v4) (V c main_v5)) := by
  show (cfg0.win 3).cut (grid0.coords t) ((dat0 V c).after 3 t) = _
  rw [after0_3]
  unfold out0_3
  rw [View.canon_unit_zero offsets_zero0]
  simp only [View.ld_unit_zero (S := S5000x128) offsets_zero0, View.ld_unit_zero (S := S128x128) offsets_zero0,
    View.ld_unit_zero (S := S1x128) offsets_zero0]
  have hN : cfg0.N = 20 := N_0
  have ht : t.val < 20 := by have := t.isLt; omega
  obtain ⟨-, -, -, -, -, -, e0, e1⟩ := block_index0 t
  funext y
  obtain ⟨p, q, rfl⟩ : ∃ (p : Fin 5000) (q : Fin 128), y = ix2 p q := ⟨y 0, y 1, eq_ix2 y⟩
  refine (stored_eq0 (V c main_arg0) (V c main_v4) (V c main_v5) (iblk0 V c 0 t) (iblk0 V c 1 t) (iblk0 V c 2 t)
    t.val ht (rows_block0 V c t ht) (weights_block0 V c t) (bias_block0 V c t) p q).trans ?_
  show LinRelu (V c main_arg0) (V c main_v4) (V c main_v5) _
    = LinRelu (V c main_arg0) (V c main_v4) (V c main_v5) (((cfg0.win 3).blk t).view.emb (ix2 p q))
  congr 1
  funext a
  apply Fin.ext
  match a with
  | ⟨0, _⟩ => show 5000 * t.val + p.val = win0_3.index t (0 : Fin 2) * 5000 + 1 * p.val; omega
  | ⟨1, _⟩ => show q.val = win0_3.index t (1 : Fin 2) * 128 + 1 * q.val; omega

/-- An entry of the output array is in point `t`'s block iff each coordinate is in the block's range on its axis. -/
private theorem mem_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- The twenty blocks tile the array: row `r` is in the block of point `r / 5000`, and a block has all 128 columns. -/
private theorem cover0 (i : S100000x128.Idx) :
    ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 128 := idx2_lt1 i
  obtain ⟨t, ht⟩ : ∃ t : Fin cfg0.N, t.val = (i 0).val / 5000 := ⟨⟨(i 0).val / 5000, by omega⟩, rfl⟩
  obtain ⟨-, -, -, -, -, -, e0, e1⟩ := block_index0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array of the first call after all twenty points. -/
theorem final0 (c : Dev nD) :
    (dat0 (F := Ideal) V c).arrAt 3 cfg0.N = LinRelu (V c main_arg0) (V c main_v4) (V c main_v5) :=
  (dat0 (F := Ideal) V c).arrAt_eq_of_cover 3 (LinRelu (V c main_arg0) (V c main_v4) (V c main_v5))
    (fun t _ => flushed0_eq V c t) cover0

end Cert.KernelIdeal.RegionValue

end
-- ==== Proof.Net.lean ====
/-
  The whole network as ONE function of the thirteen argument arrays, at the ideal values.

  Node features go through the input transform (`LinRelu`); three graph-convolution layers follow, each adding to
  a node's row the sum of its in-neighbours' rows (rows gathered along the edges' sources, then summed into the edges'
  targets) and applying `Gin` with that layer's slices of the stacked weights; the output transform (`Lin`) and a
  sum of node rows into their graphs' rows end it.  The function is stated over a parameter: HOW the rows are gathered
  along the sources.  One program gathers them plainly; the other gathers them and then overwrites, with a filler
  word, every row whose source index lies outside the array.  The two are the same network at two gathers.
-/
import proofs.«427842_j14078902796336_1_alg».proof.Proof.Gen.KernelIdeal
import proofs.«427842_j14078902796336_1_alg».proof.Proof.Spec

noncomputable section

namespace Cert.Gin

open Idealize.ShloMosaic Cert.KernelIdeal Cert.KernelIdeal.Gen

/-- The edges' sources: row 0 of the 2 × E index array, as a vector. -/
def srcOf (e : IVec S2x1600000 32) : IVec S1600000 32 :=
  shapeCast S1600000 (extractStridedSlice S1x1600000 ![0, 0] e slices_S2x1600000_S1x1600000_0_0) shapeCasts_S1x1600000_S1600000

/-- The edges' targets: row 1 of the index array. -/
def dstOf (e : IVec S2x1600000 32) : IVec S1600000 32 :=
  shapeCast S1600000 (extractStridedSlice S1x1600000 ![1, 0] e slices_S2x1600000_S1x1600000_1_0) shapeCasts_S1x1600000_S1600000

/-- A negative index counted from the end: `s + 100000` where `s < 0`, else `s`. -/
def wrapIdx (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The wrapped indices as the E × 1 column a row gather starts from. -/
def idxCol (s : IVec S1600000 32) : IVec S1600000x1 32 :=
  broadcastInDim S1600000x1 ![0] bcast_S1600000_S1600000x1_0 (wrapIdx s)

/-- The plain gather of rows along the wrapped indices. -/
def gatherRows (H : FVec Ideal S100000x128 .f32) (s : IVec S1600000 32) : FVec Ideal S1600000x128 .f32 :=
  Host.gather gather_S100000x128_S1600000x1_S1600000x128_1_0_n_n_0_1_1128 H (idxCol s)

/-- Per edge and column: is the wrapped index inside `[0, 99999]`? -/
def takeMask (s : IVec S1600000 32) : IVec S1600000x128 1 :=
  broadcastInDim S1600000x128 ![0] bcast_S1600000_S1600000x128_0
    (Host.reduce IntOp.andi
      (andi (cmpi .sge (idxCol s) (broadcastInDim S1600000x1 ![] bcast_S_S1600000x1 (constantI S_ 32 0#32)))
        (cmpi .sle (idxCol s) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The gather that overwrites with a filler word every row whose wrapped index is out of range. -/
def takeRows (H : FVec Ideal S100000x128 .f32) (s : IVec S1600000 32) : FVec Ideal S1600000x128 .f32 :=
  select (takeMask s) (gatherRows H s)
    (broadcastInDim S1600000x128 ![] bcast_S_S1600000x128 (constant S_ .f32 0x7FC00000#32))

/-- Rows summed into their targets' rows, from zero. -/
def aggOf (G : FVec Ideal S1600000x128 .f32) (d : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) G

/-- The normalisation's scale: `γ · rsqrt(1.00001)`, the constant as the word both programs carry. -/
def scaleOf (g : FVec Ideal S3x128 .f32) : FVec Ideal S3x128 .f32 :=
  mulf g (broadcastInDim S3x128 ![] bcast_S_S3x128 (Host.rsqrt (constant S_ .f32 0x3F800054#32)))

/-- Layer `l`'s weight matrix out of the stacked weights, transposed. -/
def matT (W : FVec Ideal S3x128x128 .f32) (st : Fin 3 → ℕ) (hs : S3x128x128.Slices st S1x128x128) : FVec Ideal S128x128 .f32 :=
  transpose S128x128 [1, 0] (shapeCast S128x128 (extractStridedSlice S1x128x128 st W hs) shapeCasts_S1x128x128_S128x128)
    transposes_S128x128_S128x128_1_0

/-- Layer `l`'s row out of a stacked 3 × 128 array, as a 1 × 128 row. -/
def rowK (B : FVec Ideal S3x128 .f32) (st : Fin 2 → ℕ) (hs : S3x128.Slices st S1x128) : FVec Ideal S1x128 .f32 :=
  shapeCast S1x128 (shapeCast S128 (extractStridedSlice S1x128 st B hs) shapeCasts_S1x128_S128) shapeCasts_S128_S1x128

/-- A graph-convolution layer at a gather `gat`: `Gin` of the node array and of the gathered rows summed into the targets. -/
def layer (gat : FVec Ideal S100000x128 .f32 → FVec Ideal S1600000x128 .f32) (d : IVec S1600000 32)
    (H : FVec Ideal S100000x128 .f32) (w1 : FVec Ideal S128x128 .f32) (b1 sc be : FVec Ideal S1x128 .f32)
    (w2 : FVec Ideal S128x128 .f32) (b2 : FVec Ideal S1x128 .f32) : FVec Ideal S100000x128 .f32 :=
  Gin H (aggOf (gat H) d) w1 b1 sc be w2 b2

/-- The network at a gather `gat`. -/
def net (gat : FVec Ideal S100000x128 .f32 → FVec Ideal S1600000x128 .f32)
    (x : FVec Ideal S100000x128 .f32) (e : IVec S2x1600000 32) (bt : IVec S100000 32)
    (t1w : FVec Ideal S128x128 .f32) (t1b : FVec Ideal S128 .f32) (t2w : FVec Ideal S128x128 .f32) (t2b : FVec Ideal S128 .f32)
    (W1 : FVec Ideal S3x128x128 .f32) (b1 g be : FVec Ideal S3x128 .f32) (W2 : FVec Ideal S3x128x128 .f32) (b2 : FVec Ideal S3x128 .f32) :
    FVec Ideal S512x128 .f32 :=
  let H0 := LinRelu x (transpose S128x128 [1, 0] t1w transposes_S128x128_S128x128_1_0) (shapeCast S1x128 t1b shapeCasts_S128_S1x128)
  let H1 := layer gat (dstOf e) H0 (matT W1 ![0, 0, 0] slices_S3x128x128_S1x128x128_0_0_0) (rowK b1 ![0, 0] slices_S3x128_S1x128_0_0)
    (rowK (scaleOf g) ![0, 0] slices_S3x128_S1x128_0_0) (rowK be ![0, 0] slices_S3x128_S1x128_0_0)
    (matT W2 ![0, 0, 0] slices_S3x128x128_S1x128x128_0_0_0) (rowK b2 ![0, 0] slices_S3x128_S1x128_0_0)
  let H2 := layer gat (dstOf e) H1 (matT W1 ![1, 0, 0] slices_S3x128x128_S1x128x128_1_0_0) (rowK b1 ![1, 0] slices_S3x128_S1x128_1_0)
    (rowK (scaleOf g) ![1, 0] slices_S3x128_S1x128_1_0) (rowK be ![1, 0] slices_S3x128_S1x128_1_0)
    (matT W2 ![1, 0, 0] slices_S3x128x128_S1x128x128_1_0_0) (rowK b2 ![1, 0] slices_S3x128_S1x128_1_0)
  let H3 := layer gat (dstOf e) H2 (matT W1 ![2, 0, 0] slices_S3x128x128_S1x128x128_2_0_0) (rowK b1 ![2, 0] slices_S3x128_S1x128_2_0)
    (rowK (scaleOf g) ![2, 0] slices_S3x128_S1x128_2_0) (rowK be ![2, 0] slices_S3x128_S1x128_2_0)
    (matT W2 ![2, 0, 0] slices_S3x128x128_S1x128x128_2_0_0) (rowK b2 ![2, 0] slices_S3x128_S1x128_2_0)
  Host.scatterAdd scatter_S512x128_S100000x1_S100000x128_1_0_0_1
    (broadcastInDim S512x128 ![] bcast_S_S512x128 (constant S_ .f32 0x00000000#32))
    (broadcastInDim S100000x1 ![0] bcast_S100000_S100000x1_0 bt)
    (Lin H3 (transpose S128x128 [1, 0] t2w transposes_S128x128_S128x128_1_0) (shapeCast S1x128 t2b shapeCasts_S128_S1x128))

end Cert.Gin

end
-- ==== Proof.KS0.lean ====
/-
  The kernel program's buffers up to the first call's exit.  The first host stretch slices the sources and the targets
  out of the edge array, transposes the input transform's matrix and reshapes its bias to a row, and writes no argument;
  the first call leaves `LinRelu` of the features in its output array and touches nothing else that is read later.
-/
import proofs.«427842_j14078902796336_1_alg».proof.Proof.Gen.KernelIdeal.Frame
import proofs.«427842_j14078902796336_1_alg».proof.Proof.KFinal0
import proofs.«427842_j14078902796336_1_alg».proof.Proof.Net
import Idealize.ShloMosaic.Lib.StableHlo.Run

set_option maxRecDepth 16384

noncomputable section

namespace Cert.KernelIdeal.RegionValue

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg)

/-- A buffer that no operation of a host stretch writes is, after the stretch, what it was before. -/
macro "unwritten" : tactic => `(tactic| (
  refine StableHlo.after_of_forall_not_mem (b := _) _ _ (List.forall_iff_forall_mem.mp (by
    simp only [hostOps0, hostOps1, hostOps1_1, hostOps1_2, hostOps2, hostOps2_1, hostOps3, hostOps3_1, hostOps4, hostOps5,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))))

/-- The gather this program makes along the sources: out-of-range rows overwritten. -/
def gatK (c : Dev nD) : FVec Ideal S100000x128 .f32 → FVec Ideal S1600000x128 .f32 :=
  fun H => takeRows H (srcOf (m ((c.tc : Thread nD τ).loc main_arg1)))

/-- The node array after the input transform. -/
def hid0 (c : Dev nD) : FVec Ideal S100000x128 .f32 :=
  LinRelu (m ((c.tc : Thread nD τ).loc main_arg0)) (transpose S128x128 [1, 0] (m ((c.tc : Thread nD τ).loc main_arg3)) transposes_S128x128_S128x128_1_0) (shapeCast S1x128 (m ((c.tc : Thread nD τ).loc main_arg4)) shapeCasts_S128_S1x128)

/-- … after the first, second and third graph-convolution layer. -/
def hid1 (c : Dev nD) : FVec Ideal S100000x128 .f32 :=
  layer (gatK m c) (dstOf (m ((c.tc : Thread nD τ).loc main_arg1))) (hid0 m c) (matT (m ((c.tc : Thread nD τ).loc main_arg7)) ![0, 0, 0] slices_S3x128x128_S1x128x128_0_0_0) (rowK (m ((c.tc : Thread nD τ).loc main_arg8)) ![0, 0] slices_S3x128_S1x128_0_0)
    (rowK (scaleOf (m ((c.tc : Thread nD τ).loc main_arg9))) ![0, 0] slices_S3x128_S1x128_0_0) (rowK (m ((c.tc : Thread nD τ).loc main_arg10)) ![0, 0] slices_S3x128_S1x128_0_0)
    (matT (m ((c.tc : Thread nD τ).loc main_arg11)) ![0, 0, 0] slices_S3x128x128_S1x128x128_0_0_0) (rowK (m ((c.tc : Thread nD τ).loc main_arg12)) ![0, 0] slices_S3x128_S1x128_0_0)
def hid2 (c : Dev nD) : FVec Ideal S100000x128 .f32 :=
  layer (gatK m c) (dstOf (m ((c.tc : Thread nD τ).loc main_arg1))) (hid1 m c) (matT (m ((c.tc : Thread nD τ).loc main_arg7)) ![1, 0, 0] slices_S3x128x128_S1x128x128_1_0_0) (rowK (m ((c.tc : Thread nD τ).loc main_arg8)) ![1, 0] slices_S3x128_S1x128_1_0)
    (rowK (scaleOf (m ((c.tc : Thread nD τ).loc main_arg9))) ![1, 0] slices_S3x128_S1x128_1_0) (rowK (m ((c.tc : Thread nD τ).loc main_arg10)) ![1, 0] slices_S3x128_S1x128_1_0)
    (matT (m ((c.tc : Thread nD τ).loc main_arg11)) ![1, 0, 0] slices_S3x128x128_S1x128x128_1_0_0) (rowK (m ((c.tc : Thread nD τ).loc main_arg12)) ![1, 0] slices_S3x128_S1x128_1_0)
def hid3 (c : Dev nD) : FVec Ideal S100000x128 .f32 :=
  layer (gatK m c) (dstOf (m ((c.tc : Thread nD τ).loc main_arg1))) (hid2 m c) (matT (m ((c.tc : Thread nD τ).loc main_arg7)) ![2, 0, 0] slices_S3x128x128_S1x128x128_2_0_0) (rowK (m ((c.tc : Thread nD τ).loc main_arg8)) ![2, 0] slices_S3x128_S1x128_2_0)
    (rowK (scaleOf (m ((c.tc : Thread nD τ).loc main_arg9))) ![2, 0] slices_S3x128_S1x128_2_0) (rowK (m ((c.tc : Thread nD τ).loc main_arg10)) ![2, 0] slices_S3x128_S1x128_2_0)
    (matT (m ((c.tc : Thread nD τ).loc main_arg11)) ![2, 0, 0] slices_S3x128x128_S1x128x128_2_0_0) (rowK (m ((c.tc : Thread nD τ).loc main_arg12)) ![2, 0] slices_S3x128_S1x128_2_0)

/-! ## After the first host stretch -/

theorem w1_v1 (c : Dev nD) : W1 m ρ c (Proc.devRef .tc main_v1) = srcOf (m ((c.tc : Thread nD τ).loc main_arg1)) := by
  dsimp only [W1, W0, hostOps0]; after_results_simp <;> rfl
theorem w1_v3 (c : Dev nD) : W1 m ρ c (Proc.devRef .tc main_v3) = dstOf (m ((c.tc : Thread nD τ).loc main_arg1)) := by
  dsimp only [W1, W0, hostOps0]; after_results_simp <;> rfl
theorem w1_v4 (c : Dev nD) : W1 m ρ c (Proc.devRef .tc main_v4) = transpose S128x128 [1, 0] (m ((c.tc : Thread nD τ).loc main_arg3)) transposes_S128x128_S128x128_1_0 := by
  dsimp only [W1, W0, hostOps0]; after_results_simp <;> rfl
theorem w1_v5 (c : Dev nD) : W1 m ρ c (Proc.devRef .tc main_v5) = shapeCast S1x128 (m ((c.tc : Thread nD τ).loc main_arg4)) shapeCasts_S128_S1x128 := by
  dsimp only [W1, W0, hostOps0]; after_results_simp <;> rfl
theorem w1_arg0 (c : Dev nD) : W1 m ρ c (Proc.devRef .tc main_arg0) = (m ((c.tc : Thread nD τ).loc main_arg0)) :=
  (by unwritten : W1 m ρ c (Proc.devRef .tc main_arg0) = W0 m ρ c (Proc.devRef .tc main_arg0)).trans rfl
theorem w1_arg2 (c : Dev nD) : W1 m ρ c (Proc.devRef .tc main_arg2) = (m ((c.tc : Thread nD τ).loc main_arg2)) :=
  (by unwritten : W1 m ρ c (Proc.devRef .tc main_arg2) = W0 m ρ c (Proc.devRef .tc main_arg2)).trans rfl
theorem w1_arg5 (c : Dev nD) : W1 m ρ c (Proc.devRef .tc main_arg5) = (m ((c.tc : Thread nD τ).loc main_arg5)) :=
  (by unwritten : W1 m ρ c (Proc.devRef .tc main_arg5) = W0 m ρ c (Proc.devRef .tc main_arg5)).trans rfl
theorem w1_arg6 (c : Dev nD) : W1 m ρ c (Proc.devRef .tc main_arg6) = (m ((c.tc : Thread nD τ).loc main_arg6)) :=
  (by unwritten : W1 m ρ c (Proc.devRef .tc main_arg6) = W0 m ρ c (Proc.devRef .tc main_arg6)).trans rfl
theorem w1_arg7 (c : Dev nD) : W1 m ρ c (Proc.devRef .tc main_arg7) = (m ((c.tc : Thread nD τ).loc main_arg7)) :=
  (by unwritten : W1 m ρ c (Proc.devRef .tc main_arg7) = W0 m ρ c (Proc.devRef .tc main_arg7)).trans rfl
theorem w1_arg8 (c : Dev nD) : W1 m ρ c (Proc.devRef .tc main_arg8) = (m ((c.tc : Thread nD τ).loc main_arg8)) :=
  (by unwritten : W1 m ρ c (Proc.devRef .tc main_arg8) = W0 m ρ c (Proc.devRef .tc main_arg8)).trans rfl
theorem w1_arg9 (c : Dev nD) : W1 m ρ c (Proc.devRef .tc main_arg9) = (m ((c.tc : Thread nD τ).loc main_arg9)) :=
  (by unwritten : W1 m ρ c (Proc.devRef .tc main_arg9) = W0 m ρ c (Proc.devRef .tc main_arg9)).trans rfl
theorem w1_arg10 (c : Dev nD) : W1 m ρ c (Proc.devRef .tc main_arg10) = (m ((c.tc : Thread nD τ).loc main_arg10)) :=
  (by unwritten : W1 m ρ c (Proc.devRef .tc main_arg10) = W0 m ρ c (Proc.devRef .tc main_arg10)).trans rfl
theorem w1_arg11 (c : Dev nD) : W1 m ρ c (Proc.devRef .tc main_arg11) = (m ((c.tc : Thread nD τ).loc main_arg11)) :=
  (by unwritten : W1 m ρ c (Proc.devRef .tc main_arg11) = W0 m ρ c (Proc.devRef .tc main_arg11)).trans rfl
theorem w1_arg12 (c : Dev nD) : W1 m ρ c (Proc.devRef .tc main_arg12) = (m ((c.tc : Thread nD τ).loc main_arg12)) :=
  (by unwritten : W1 m ρ c (Proc.devRef .tc main_arg12) = W0 m ρ c (Proc.devRef .tc main_arg12)).trans rfl

/-! ## At the first call's exit -/

/-- The first call's output array: the input transform of the features. -/
theorem w2_h (c : Dev nD) : W2 m ρ c (Proc.devRef .tc main_v6) = hid0 m c := by
  refine (W2_arr m ρ c 3).trans ((final0 (V1 m ρ) c).trans ?_)
  show LinRelu (W1 m ρ c (Proc.devRef .tc main_arg0)) (W1 m ρ c (Proc.devRef .tc main_v4)) (W1 m ρ c (Proc.devRef .tc main_v5)) = _
  rw [w1_arg0, w1_v4, w1_v5]; rfl

theorem w2_v1 (c : Dev nD) : W2 m ρ c (Proc.devRef .tc main_v1) = srcOf (m ((c.tc : Thread nD τ).loc main_arg1)) :=
  (W2_of_ne m ρ c main_v1 (by decide)).trans (w1_v1 m ρ c)
theorem w2_v3 (c : Dev nD) : W2 m ρ c (Proc.devRef .tc main_v3) = dstOf (m ((c.tc : Thread nD τ).loc main_arg1)) :=
  (W2_of_ne m ρ c main_v3 (by decide)).trans (w1_v3 m ρ c)
theorem w2_arg2 (c : Dev nD) : W2 m ρ c (Proc.devRef .tc main_arg2) = (m ((c.tc : Thread nD τ).loc main_arg2)) :=
  (W2_of_ne m ρ c main_arg2 (by decide)).trans (w1_arg2 m ρ c)
theorem w2_arg5 (c : Dev nD) : W2 m ρ c (Proc.devRef .tc main_arg5) = (m ((c.tc : Thread nD τ).loc main_arg5)) :=
  (W2_of_ne m ρ c main_arg5 (by decide)).trans (w1_arg5 m ρ c)
theorem w2_arg6 (c : Dev nD) : W2 m ρ c (Proc.devRef .tc main_arg6) = (m ((c.tc : Thread nD τ).loc main_arg6)) :=
  (W2_of_ne m ρ c main_arg6 (by decide)).trans (w1_arg6 m ρ c)
theorem w2_arg7 (c : Dev nD) : W2 m ρ c (Proc.devRef .tc main_arg7) = (m ((c.tc : Thread nD τ).loc main_arg7)) :=
  (W2_of_ne m ρ c main_arg7 (by decide)).trans (w1_arg7 m ρ c)
theorem w2_arg8 (c : Dev nD) : W2 m ρ c (Proc.devRef .tc main_arg8) = (m ((c.tc : Thread nD τ).loc main_arg8)) :=
  (W2_of_ne m ρ c main_arg8 (by decide)).trans (w1_arg8 m ρ c)
theorem w2_arg9 (c : Dev nD) : W2 m ρ c (Proc.devRef .tc main_arg9) = (m ((c.tc : Thread nD τ).loc main_arg9)) :=
  (W2_of_ne m ρ c main_arg9 (by decide)).trans (w1_arg9 m ρ c)
theorem w2_arg10 (c : Dev nD) : W2 m ρ c (Proc.devRef .tc main_arg10) = (m ((c.tc : Thread nD τ).loc main_arg10)) :=
  (W2_of_ne m ρ c main_arg10 (by decide)).trans (w1_arg10 m ρ c)
theorem w2_arg11 (c : Dev nD) : W2 m ρ c (Proc.devRef .tc main_arg11) = (m ((c.tc : Thread nD τ).loc main_arg11)) :=
  (W2_of_ne m ρ c main_arg11 (by decide)).trans (w1_arg11 m ρ c)
theorem w2_arg12 (c : Dev nD) : W2 m ρ c (Proc.devRef .tc main_arg12) = (m ((c.tc : Thread nD τ).loc main_arg12)) :=
  (W2_of_ne m ρ c main_arg12 (by decide)).trans (w1_arg12 m ρ c)

/-! ## The filling gather at any float family

  Reading the gather's stretch back is done at an arbitrary family of float values (nothing in the stretch computes with
  floats: it compares and selects), and instantiated at the ideal values afterwards. -/

section AnyFamily

variable {F : FTy → Type} [FloatOps F]

/-- The gather that overwrites with a filler word every row whose wrapped index is out of range, at any float family. -/
def takeRowsG (H : FVec F S100000x128 .f32) (s : IVec S1600000 32) : FVec F S1600000x128 .f32 :=
  select (takeMask s) (Host.gather gather_S100000x128_S1600000x1_S1600000x128_1_0_n_n_0_1_1128 H (idxCol s))
    (broadcastInDim S1600000x128 ![] bcast_S_S1600000x128 (constant S_ .f32 0x7FC00000#32))

theorem takeRowsG_ideal (H : FVec Ideal S100000x128 .f32) (s : IVec S1600000 32) : takeRowsG (F := Ideal) H s = takeRows H s := rfl

/-- A value carried to a buffer's own type and back is the value. -/
theorem ofBuf_toBuf {T : BufTy} (x : TRef sig T) (v : T.Contents (Elt F)) : x.ofBuf (x.toBuf v) = v := by
  obtain ⟨r, rfl, h2, h3⟩ := x; rfl

/-- The sources' buffer read at its own type. -/
theorem ofBuf_v1 (v : IVec S1600000 32) : (TRef.of main_v1 : TRef sig ⟨S1600000, .i32⟩).ofBuf (Val := Elt F) v = v := rfl

end AnyFamily

end Cert.KernelIdeal.RegionValue

end
-- ==== Proof.KFinal1.lean ====
/-
  The first graph-convolution call, read as an array.  Its grid has twenty points; point `t` loads rows `5000·t … 5000·t + 4999` of the
  node array and of the aggregated array, the two weight matrices and the four rows whole, and stores `ginRow` of each
  loaded row.  Row `r` of the result depends on row `r` of the operands only, and the twenty blocks tile the 100000 rows:
  the output array after the call is `Gin` of the arrays the call found.
-/
import proofs.«427842_j14078902796336_1_alg».proof.Proof.Gen.KernelIdeal.Frame
import proofs.«427842_j14078902796336_1_alg».proof.Proof.KPay

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gin

variable (V : (c : Dev nD) → (b : Ref sig .tc) → Buf (Elt Ideal) ((c : Thread nD τ).loc b))

/-- The zero offsets of a whole-block rectangle, as the constant function. -/
private theorem zero_off : (![0, 0] : Fin 2 → Nat) = fun _ => 0 := funext fun a => by fin_cases a <;> rfl

/-- The block index maps over the twenty points: the two row-block windows and the output sit at block row `t`, block
    column `0`; the matrices and the rows are whole, at block `(0, 0)`. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Entry `(p, k)` of the node array's block at point `t` is entry `(5000·t + p, k)` of the node array. -/
private theorem read_node (c : Dev nD) (t : Fin cfg1.N) (p : Fin 5000) (k : Fin 128) (r : Fin 100000)
    (hr : r.val = 5000 * t.val + p.val) :
    iblk1 (F := Ideal) V c 0 t (ix2 p k) = V c main_v6 (ix2 r k) := by
  show V c main_v6 (((cfg1.win 0).blk t).view.emb (ix2 p k)) = V c main_v6 (ix2 r k)
  refine congrArg _ ?_
  obtain ⟨e0, e1, -⟩ := block_index t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The same for the aggregated array. -/
private theorem read_agg (c : Dev nD) (t : Fin cfg1.N) (p : Fin 5000) (k : Fin 128) (r : Fin 100000)
    (hr : r.val = 5000 * t.val + p.val) :
    iblk1 (F := Ideal) V c 1 t (ix2 p k) = V c main_v13 (ix2 r k) := by
  show V c main_v13 (((cfg1.win 1).blk t).view.emb (ix2 p k)) = V c main_v13 (ix2 r k)
  refine congrArg _ ?_
  obtain ⟨-, -, e0, e1, -⟩ := block_index t
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- The first weight matrix is loaded whole. -/
private theorem read_w1 (c : Dev nD) (t : Fin cfg1.N) : iblk1 (F := Ideal) V c 2 t = V c main_v16 := by
  funext y
  show V c main_v16 (((cfg1.win 2).blk t).view.emb y) = V c main_v16 y
  refine congrArg _ ?_
  obtain ⟨-, -, -, -, e0, e1, -⟩ := block_index t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias row is loaded whole. -/
private theorem read_b1 (c : Dev nD) (t : Fin cfg1.N) : iblk1 (F := Ideal) V c 3 t = V c main_v28 := by
  funext y
  show V c main_v28 (((cfg1.win 3).blk t).view.emb y) = V c main_v28 y
  refine congrArg _ ?_
  obtain ⟨-, -, -, -, -, -, e0, e1, -⟩ := block_index t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The scale row is loaded whole. -/
private theorem read_sc (c : Dev nD) (t : Fin cfg1.N) : iblk1 (F := Ideal) V c 4 t = V c main_v29 := by
  funext y
  show V c main_v29 (((cfg1.win 4).blk t).view.emb y) = V c main_v29 y
  refine congrArg _ ?_
  obtain ⟨-, -, -, -, -, -, -, -, e0, e1, -⟩ := block_index t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The shift row is loaded whole. -/
private theorem read_be (c : Dev nD) (t : Fin cfg1.N) : iblk1 (F := Ideal) V c 5 t = V c main_v30 := by
  funext y
  show V c main_v30 (((cfg1.win 5).blk t).view.emb y) = V c main_v30 y
  refine congrArg _ ?_
  obtain ⟨-, -, -, -, -, -, -, -, -, -, e0, e1, -⟩ := block_index t
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The second weight matrix is loaded whole. -/
private theorem read_w2 (c : Dev nD) (t : Fin cfg1.N) : iblk1 (F := Ideal) V c 6 t = V c main_v25 := by
  funext y
  show V c main_v25 (((cfg1.win 6).blk t).view.emb y) = V c main_v25 y
  refine congrArg _ ?_
  obtain ⟨-, -, -, -, -, -, -, -, -, -, -, -, e0, e1, -⟩ := block_index t
  funext a; apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- The second bias row is loaded whole. -/
private theorem read_b2 (c : Dev nD) (t : Fin cfg1.N) : iblk1 (F := Ideal) V c 7 t = V c main_v31 := by
  funext y
  show V c main_v31 (((cfg1.win 7).blk t).view.emb y) = V c main_v31 y
  refine congrArg _ ?_
  obtain ⟨-, -, -, -, -, -, -, -, -, -, -, -, -, -, e0, e1, -⟩ := block_index t
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Entry `(p, q)` of the output's block at point `t` sits at `(5000·t + p, q)` in the output array. -/
private theorem out_emb (t : Fin cfg1.N) (p : Fin 5000) (q : Fin 128) (r : Fin 100000)
    (hr : r.val = 5000 * t.val + p.val) :
    ((cfg1.win 8).blk t).view.emb (ix2 p q) = ix2 r q := by
  obtain ⟨-, -, -, -, -, -, -, -, -, -, -, -, -, -, -, -, e0, e1⟩ := block_index t
  funext a; apply Fin.ext
  match a with
  | ⟨0, _⟩ => show win1_8.index t (0 : Fin 2) * 5000 + 1 * p.val = r.val; omega
  | ⟨1, _⟩ => show win1_8.index t (1 : Fin 2) * 128 + 1 * q.val = q.val; omega

/-- `ginRow` depends on its operands only through their values. -/
private theorem ginRow_congr {hr hr' ar ar' : Fin 128 → EReal} {w1 w1' : FVec Ideal (Rows 128) .f32}
    {b1 b1' sc sc' be be' : FVec Ideal (⟨2, ![1, 128]⟩ : Shape) .f32} {w2 w2' : FVec Ideal (Rows 128) .f32}
    {b2 b2' : FVec Ideal (⟨2, ![1, 128]⟩ : Shape) .f32} (q : Fin 128)
    (h0 : hr = hr') (h1 : ar = ar') (h2 : w1 = w1') (h3 : b1 = b1') (h4 : sc = sc') (h5 : be = be') (h6 : w2 = w2')
    (h7 : b2 = b2') :
    ginRow hr ar w1 b1 sc be w2 b2 q = ginRow hr' ar' w1' b1' sc' be' w2' b2' q := by
  subst h0 h1 h2 h3 h4 h5 h6 h7; rfl

/-- What point `t` writes back is block `t` of `Gin` of the arrays the call found. -/
private theorem flushed_eq (c : Dev nD) (t : Fin cfg1.N) :
    (dat1 (F := Ideal) V c).flushed 8 t = ((cfg1.win 8).blk t).view.read (Elt Ideal)
      (Gin (V c main_v6) (V c main_v13) (V c main_v16) (V c main_v28) (V c main_v29) (V c main_v30) (V c main_v25) (V c main_v31)) := by
  show (cfg1.win 8).cut (grid1.coords t) ((dat1 V c).after 8 t) = _
  rw [after1_8]
  unfold out1_8
  rw [View.canon_unit_zero zero_off]
  simp only [View.ld_unit_zero (S := S5000x128) zero_off, View.ld_unit_zero (S := S128x128) zero_off,
    View.ld_unit_zero (S := S1x128) zero_off]
  funext y
  obtain ⟨p, q, rfl⟩ : ∃ (p : Fin 5000) (q : Fin 128), y = ix2 p q := ⟨y 0, y 1, eq_ix2 y⟩
  have hN : cfg1.N = 20 := N_1
  have ht : t.val < 20 := hN ▸ t.isLt
  have hp : p.val < 5000 := p.isLt
  let r : Fin 100000 := ⟨5000 * t.val + p.val, by omega⟩
  have hr : r.val = 5000 * t.val + p.val := rfl
  show k1_pay1 (F := Ideal) (iblk1 V c 0 t) (iblk1 V c 1 t) (iblk1 V c 2 t) (iblk1 V c 3 t) (iblk1 V c 4 t) (iblk1 V c 5 t)
      (iblk1 V c 6 t) (iblk1 V c 7 t) (ix2 p q)
    = Gin (V c main_v6) (V c main_v13) (V c main_v16) (V c main_v28) (V c main_v29) (V c main_v30) (V c main_v25) (V c main_v31)
      (((cfg1.win 8).blk t).view.emb (ix2 p q))
  refine (KPay.pay1_apply _ _ _ _ _ _ _ _ p q).trans ?_
  refine Eq.trans ?_ (congrArg _ (out_emb t p q r hr).symm)
  refine Eq.trans ?_ (Gin_apply _ _ _ _ _ _ _ _ r q).symm
  exact ginRow_congr q (funext fun k => read_node V c t p k r hr) (funext fun k => read_agg V c t p k r hr)
    (read_w1 V c t) (read_b1 V c t) (read_sc V c t) (read_be V c t) (read_w2 V c t) (read_b2 V c t)

/-- An index of the output array is in point `t`'s block iff each coordinate is in the block's range on its axis. -/
private theorem mem_blk (t : Fin cfg1.N) (i : S100000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v32).slice (win1_8.rect t)).set ↔ _
  rw [View.set_slice_whole, Rect.mem_set_unit]
  exact Iff.rfl

/-- Row `r` of the output array lies in the block of point `r / 5000`, whatever the column: the twenty blocks of
    5000 rows tile the 100000 rows, and a block has all 128 columns. -/
private theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 20 := N_1
  have hlt : (i 0).val / 5000 < cfg1.N := by omega
  refine ⟨⟨(i 0).val / 5000, hlt⟩, flush1_8 _, ?_⟩
  rw [mem_blk]
  obtain ⟨-, -, -, -, -, -, -, -, -, -, -, -, -, -, -, -, e0, e1⟩ := block_index ⟨(i 0).val / 5000, hlt⟩
  have e0' : win1_8.index ⟨(i 0).val / 5000, hlt⟩ (0 : Fin 2) = (i 0).val / 5000 := e0
  intro a
  match a with
  | ⟨0, _⟩ =>
    show win1_8.index ⟨(i 0).val / 5000, hlt⟩ (0 : Fin 2) * 5000 ≤ (i 0).val
      ∧ (i 0).val < win1_8.index ⟨(i 0).val / 5000, hlt⟩ (0 : Fin 2) * 5000 + 5000
    omega
  | ⟨1, _⟩ =>
    show win1_8.index ⟨(i 0).val / 5000, hlt⟩ (1 : Fin 2) * 128 ≤ (i 1).val
      ∧ (i 1).val < win1_8.index ⟨(i 0).val / 5000, hlt⟩ (1 : Fin 2) * 128 + 128
    omega

/-- The output array of the second call after all twenty points. -/
theorem final1 (c : Dev nD) :
    (dat1 (F := Ideal) V c).arrAt 8 cfg1.N
      = Gin (V c main_v6) (V c main_v13) (V c main_v16) (V c main_v28) (V c main_v29) (V c main_v30) (V c main_v25) (V c main_v31) :=
  (dat1 (F := Ideal) V c).arrAt_eq_of_cover 8
    (Gin (V c main_v6) (V c main_v13) (V c main_v16) (V c main_v28) (V c main_v29) (V c main_v30) (V c main_v25) (V c main_v31))
    (fun t _ => flushed_eq V c t) cover

end Cert.KernelIdeal.RegionValue

end
-- ==== Proof.KS1.lean ====
/-
  The first graph-convolution layer in the kernel program.  Before it the host computes the normalisation's scale, gathers the
  node rows along the sources (overwriting rows whose wrapped index is out of range), sums them into the targets, and
  slices the layer's two matrices and four rows out of the stacked weights; the call leaves `Gin` of those in its output
  array.  Everything a later layer reads is untouched.
-/
import proofs.«427842_j14078902796336_1_alg».proof.Proof.Gen.KernelIdeal.Frame
import proofs.«427842_j14078902796336_1_alg».proof.Proof.KS0
import proofs.«427842_j14078902796336_1_alg».proof.Proof.KFinal1
import proofs.«427842_j14078902796336_1_alg».proof.Proof.Net
import Idealize.ShloMosaic.Lib.StableHlo.Run

set_option maxRecDepth 16384
-- reading a buffer back through a stretch of some twenty host operations walks the stretch once per operand
set_option maxHeartbeats 4000000

noncomputable section

namespace Cert.KernelIdeal.RegionValue

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg)

/-! ## Layer 1: what the call finds -/

theorem w6_pre_h (c : Dev nD) : W3 m ρ c (Proc.devRef .tc main_v6) = hid0 m c :=
  (by unwritten : W3 m ρ c (Proc.devRef .tc main_v6) = W2 m ρ c (Proc.devRef .tc main_v6)).trans (w2_h m ρ c)
theorem w6_pre_v1 (c : Dev nD) : W3 m ρ c (Proc.devRef .tc main_v1) = srcOf (m ((c.tc : Thread nD τ).loc main_arg1)) :=
  (by unwritten : W3 m ρ c (Proc.devRef .tc main_v1) = W2 m ρ c (Proc.devRef .tc main_v1)).trans (w2_v1 m ρ c)
/-- The normalisation's scale, computed once before the first layer. -/
theorem w6_pre_v9 (c : Dev nD) : W3 m ρ c (Proc.devRef .tc main_v9) = scaleOf (m ((c.tc : Thread nD τ).loc main_arg9)) := by
  have e : W3 m ρ c (Proc.devRef .tc main_v9) = scaleOf (W2 m ρ c (Proc.devRef .tc main_arg9)) := by
    dsimp only [W3, hostOps1]; after_results_simp <;> rfl
  exact e.trans (by rw [w2_arg9 m ρ c])
/-- The outlined gather's buffers, read at their own types. -/
theorem w6_toBuf_t {F : FTy → Type} [FloatOps F] (v : FVec F S1600000x128 .f32) :
    (TRef.of main_v10 : TRef sig ⟨S1600000x128, .f32⟩).toBuf (Val := Elt F) v = v := rfl
theorem w6_ofBuf_h {F : FTy → Type} [FloatOps F] (v : FVec F S100000x128 .f32) :
    (TRef.of main_v6 : TRef sig ⟨S100000x128, .f32⟩).ofBuf (Val := Elt F) v = v := rfl
set_option maxRecDepth 100000 in
/-- The stretch that gathers the rows along the sources, at any float family: the previous array's rows at the wrapped
    sources, out-of-range rows overwritten. -/
theorem w6_take_gen {F : FTy → Type} [FloatOps F] (mF : (ℓ : Loc nD τ sig) → Buf (Elt F) ℓ) (c : Dev nD) :
    W4 mF ρ c (Proc.devRef .tc main_v10) = takeRowsG (W3 mF ρ c (Proc.devRef .tc main_v6)) (W3 mF ρ c (Proc.devRef .tc main_v1)) := by
  have e : W4 mF ρ c (Proc.devRef .tc main_v10)
      = (TRef.of main_v10 : TRef sig ⟨S1600000x128, .f32⟩).toBuf (takeRowsG
          ((TRef.of main_v6 : TRef sig ⟨S100000x128, .f32⟩).ofBuf (W3 mF ρ c (Proc.devRef .tc main_v6)))
          ((TRef.of main_v1 : TRef sig ⟨S1600000, .i32⟩).ofBuf (W3 mF ρ c (Proc.devRef .tc main_v1)))) := by
    dsimp only [W4, hostOps1_1]
    after_results_simp
    simp only [ofBuf_toBuf]
    rfl
  exact e.trans ((w6_toBuf_t _).trans (by rw [w6_ofBuf_h, ofBuf_v1]))
/-- … and at the ideal values, of the array and the sources as they are there. -/
theorem w6_take (c : Dev nD) : W4 m ρ c (Proc.devRef .tc main_v10) = gatK m c (hid0 m c) :=
  (w6_take_gen ρ m c).trans (by rw [w6_pre_h m ρ c, w6_pre_v1 m ρ c]; rfl)
theorem w6_r_v3 (c : Dev nD) : W4 m ρ c (Proc.devRef .tc main_v3) = dstOf (m ((c.tc : Thread nD τ).loc main_arg1)) :=
  ((by unwritten : W4 m ρ c (Proc.devRef .tc main_v3) = W3 m ρ c (Proc.devRef .tc main_v3)).trans ((by unwritten : W3 m ρ c (Proc.devRef .tc main_v3) = W2 m ρ c (Proc.devRef .tc main_v3)))).trans (w2_v3 m ρ c)
theorem w6_r_arg7 (c : Dev nD) : W4 m ρ c (Proc.devRef .tc main_arg7) = (m ((c.tc : Thread nD τ).loc main_arg7)) :=
  ((by unwritten : W4 m ρ c (Proc.devRef .tc main_arg7) = W3 m ρ c (Proc.devRef .tc main_arg7)).trans ((by unwritten : W3 m ρ c (Proc.devRef .tc main_arg7) = W2 m ρ c (Proc.devRef .tc main_arg7)))).trans (w2_arg7 m ρ c)
theorem w6_r_arg8 (c : Dev nD) : W4 m ρ c (Proc.devRef .tc main_arg8) = (m ((c.tc : Thread nD τ).loc main_arg8)) :=
  ((by unwritten : W4 m ρ c (Proc.devRef .tc main_arg8) = W3 m ρ c (Proc.devRef .tc main_arg8)).trans ((by unwritten : W3 m ρ c (Proc.devRef .tc main_arg8) = W2 m ρ c (Proc.devRef .tc main_arg8)))).trans (w2_arg8 m ρ c)
theorem w6_r_arg10 (c : Dev nD) : W4 m ρ c (Proc.devRef .tc main_arg10) = (m ((c.tc : Thread nD τ).loc main_arg10)) :=
  ((by unwritten : W4 m ρ c (Proc.devRef .tc main_arg10) = W3 m ρ c (Proc.devRef .tc main_arg10)).trans ((by unwritten : W3 m ρ c (Proc.devRef .tc main_arg10) = W2 m ρ c (Proc.devRef .tc main_arg10)))).trans (w2_arg10 m ρ c)
theorem w6_r_arg11 (c : Dev nD) : W4 m ρ c (Proc.devRef .tc main_arg11) = (m ((c.tc : Thread nD τ).loc main_arg11)) :=
  ((by unwritten : W4 m ρ c (Proc.devRef .tc main_arg11) = W3 m ρ c (Proc.devRef .tc main_arg11)).trans ((by unwritten : W3 m ρ c (Proc.devRef .tc main_arg11) = W2 m ρ c (Proc.devRef .tc main_arg11)))).trans (w2_arg11 m ρ c)
theorem w6_r_arg12 (c : Dev nD) : W4 m ρ c (Proc.devRef .tc main_arg12) = (m ((c.tc : Thread nD τ).loc main_arg12)) :=
  ((by unwritten : W4 m ρ c (Proc.devRef .tc main_arg12) = W3 m ρ c (Proc.devRef .tc main_arg12)).trans ((by unwritten : W3 m ρ c (Proc.devRef .tc main_arg12) = W2 m ρ c (Proc.devRef .tc main_arg12)))).trans (w2_arg12 m ρ c)
theorem w6_r_v9 (c : Dev nD) : W4 m ρ c (Proc.devRef .tc main_v9) = scaleOf (m ((c.tc : Thread nD τ).loc main_arg9)) :=
  (by unwritten : W4 m ρ c (Proc.devRef .tc main_v9) = W3 m ρ c (Proc.devRef .tc main_v9)).trans (w6_pre_v9 m ρ c)

/-- The node array is still the previous layer's. -/
theorem w6_e_h (c : Dev nD) : W5 m ρ c (Proc.devRef .tc main_v6) = hid0 m c :=
  ((by unwritten : W5 m ρ c (Proc.devRef .tc main_v6) = W4 m ρ c (Proc.devRef .tc main_v6)).trans ((by unwritten : W4 m ρ c (Proc.devRef .tc main_v6) = W3 m ρ c (Proc.devRef .tc main_v6)).trans ((by unwritten : W3 m ρ c (Proc.devRef .tc main_v6) = W2 m ρ c (Proc.devRef .tc main_v6))))).trans (w2_h m ρ c)
/-- The gathered rows summed into the targets. -/
theorem w6_e_agg (c : Dev nD) : W5 m ρ c (Proc.devRef .tc main_v13) = aggOf (gatK m c (hid0 m c)) (dstOf (m ((c.tc : Thread nD τ).loc main_arg1))) := by
  have e : W5 m ρ c (Proc.devRef .tc main_v13) = aggOf (W4 m ρ c (Proc.devRef .tc main_v10)) (W4 m ρ c (Proc.devRef .tc main_v3)) := by
    dsimp only [W5, hostOps1_2]; after_results_simp <;> rfl
  exact e.trans (by rw [w6_take m ρ c, w6_r_v3 m ρ c])
theorem w6_e_w1 (c : Dev nD) : W5 m ρ c (Proc.devRef .tc main_v16) = matT (m ((c.tc : Thread nD τ).loc main_arg7)) ![0, 0, 0] slices_S3x128x128_S1x128x128_0_0_0 := by
  have e : W5 m ρ c (Proc.devRef .tc main_v16) = matT (W4 m ρ c (Proc.devRef .tc main_arg7)) ![0, 0, 0] slices_S3x128x128_S1x128x128_0_0_0 := by
    dsimp only [W5, hostOps1_2]; after_results_simp <;> rfl
  exact e.trans (by rw [w6_r_arg7 m ρ c])
theorem w6_e_b1 (c : Dev nD) : W5 m ρ c (Proc.devRef .tc main_v28) = rowK (m ((c.tc : Thread nD τ).loc main_arg8)) ![0, 0] slices_S3x128_S1x128_0_0 := by
  have e : W5 m ρ c (Proc.devRef .tc main_v28) = rowK (W4 m ρ c (Proc.devRef .tc main_arg8)) ![0, 0] slices_S3x128_S1x128_0_0 := by
    dsimp only [W5, hostOps1_2]; after_results_simp <;> rfl
  exact e.trans (by rw [w6_r_arg8 m ρ c])
theorem w6_e_sc (c : Dev nD) : W5 m ρ c (Proc.devRef .tc main_v29) = rowK (scaleOf (m ((c.tc : Thread nD τ).loc main_arg9))) ![0, 0] slices_S3x128_S1x128_0_0 := by
  have e : W5 m ρ c (Proc.devRef .tc main_v29) = rowK (W4 m ρ c (Proc.devRef .tc main_v9)) ![0, 0] slices_S3x128_S1x128_0_0 := by
    dsimp only [W5, hostOps1_2]; after_results_simp <;> rfl
  exact e.trans (by rw [w6_r_v9 m ρ c])
theorem w6_e_be (c : Dev nD) : W5 m ρ c (Proc.devRef .tc main_v30) = rowK (m ((c.tc : Thread nD τ).loc main_arg10)) ![0, 0] slices_S3x128_S1x128_0_0 := by
  have e : W5 m ρ c (Proc.devRef .tc main_v30) = rowK (W4 m ρ c (Proc.devRef .tc main_arg10)) ![0, 0] slices_S3x128_S1x128_0_0 := by
    dsimp only [W5, hostOps1_2]; after_results_simp <;> rfl
  exact e.trans (by rw [w6_r_arg10 m ρ c])
theorem w6_e_w2 (c : Dev nD) : W5 m ρ c (Proc.devRef .tc main_v25) = matT (m ((c.tc : Thread nD τ).loc main_arg11)) ![0, 0, 0] slices_S3x128x128_S1x128x128_0_0_0 := by
  have e : W5 m ρ c (Proc.devRef .tc main_v25) = matT (W4 m ρ c (Proc.devRef .tc main_arg11)) ![0, 0, 0] slices_S3x128x128_S1x128x128_0_0_0 := by
    dsimp only [W5, hostOps1_2]; after_results_simp <;> rfl
  exact e.trans (by rw [w6_r_arg11 m ρ c])
theorem w6_e_b2 (c : Dev nD) : W5 m ρ c (Proc.devRef .tc main_v31) = rowK (m ((c.tc : Thread nD τ).loc main_arg12)) ![0, 0] slices_S3x128_S1x128_0_0 := by
  have e : W5 m ρ c (Proc.devRef .tc main_v31) = rowK (W4 m ρ c (Proc.devRef .tc main_arg12)) ![0, 0] slices_S3x128_S1x128_0_0 := by
    dsimp only [W5, hostOps1_2]; after_results_simp <;> rfl
  exact e.trans (by rw [w6_r_arg12 m ρ c])

/-! ## Layer 1: what the call leaves -/

/-- The call's output array: the layer applied to the node array before it. -/
theorem w6_h (c : Dev nD) : W6 m ρ c (Proc.devRef .tc main_v32) = hid1 m c := by
  refine (W6_arr m ρ c 8).trans ((final1 (V5 m ρ) c).trans ?_)
  show Gin (W5 m ρ c (Proc.devRef .tc main_v6)) (W5 m ρ c (Proc.devRef .tc main_v13)) (W5 m ρ c (Proc.devRef .tc main_v16)) (W5 m ρ c (Proc.devRef .tc main_v28)) (W5 m ρ c (Proc.devRef .tc main_v29)) (W5 m ρ c (Proc.devRef .tc main_v30)) (W5 m ρ c (Proc.devRef .tc main_v25)) (W5 m ρ c (Proc.devRef .tc main_v31)) = _
  rw [w6_e_h m ρ c, w6_e_agg m ρ c, w6_e_w1 m ρ c, w6_e_b1 m ρ c, w6_e_sc m ρ c, w6_e_be m ρ c, w6_e_w2 m ρ c, w6_e_b2 m ρ c]; rfl
theorem w6_v1 (c : Dev nD) : W6 m ρ c (Proc.devRef .tc main_v1) = srcOf (m ((c.tc : Thread nD τ).loc main_arg1)) :=
  (W6_of_ne m ρ c main_v1 (by decide)).trans (((by unwritten : W5 m ρ c (Proc.devRef .tc main_v1) = W4 m ρ c (Proc.devRef .tc main_v1)).trans ((by unwritten : W4 m ρ c (Proc.devRef .tc main_v1) = W3 m ρ c (Proc.devRef .tc main_v1)).trans ((by unwritten : W3 m ρ c (Proc.devRef .tc main_v1) = W2 m ρ c (Proc.devRef .tc main_v1))))).trans (w2_v1 m ρ c))
theorem w6_v3 (c : Dev nD) : W6 m ρ c (Proc.devRef .tc main_v3) = dstOf (m ((c.tc : Thread nD τ).loc main_arg1)) :=
  (W6_of_ne m ρ c main_v3 (by decide)).trans (((by unwritten : W5 m ρ c (Proc.devRef .tc main_v3) = W4 m ρ c (Proc.devRef .tc main_v3)).trans ((by unwritten : W4 m ρ c (Proc.devRef .tc main_v3) = W3 m ρ c (Proc.devRef .tc main_v3)).trans ((by unwritten : W3 m ρ c (Proc.devRef .tc main_v3) = W2 m ρ c (Proc.devRef .tc main_v3))))).trans (w2_v3 m ρ c))
theorem w6_v9 (c : Dev nD) : W6 m ρ c (Proc.devRef .tc main_v9) = scaleOf (m ((c.tc : Thread nD τ).loc main_arg9)) :=
  (W6_of_ne m ρ c main_v9 (by decide)).trans ((by unwritten : W5 m ρ c (Proc.devRef .tc main_v9) = W4 m ρ c (Proc.devRef .tc main_v9)).trans (w6_r_v9 m ρ c))
theorem w6_arg2 (c : Dev nD) : W6 m ρ c (Proc.devRef .tc main_arg2) = (m ((c.tc : Thread nD τ).loc main_arg2)) :=
  (W6_of_ne m ρ c main_arg2 (by decide)).trans (((by unwritten : W5 m ρ c (Proc.devRef .tc main_arg2) = W4 m ρ c (Proc.devRef .tc main_arg2)).trans ((by unwritten : W4 m ρ c (Proc.devRef .tc main_arg2) = W3 m ρ c (Proc.devRef .tc main_arg2)).trans ((by unwritten : W3 m ρ c (Proc.devRef .tc main_arg2) = W2 m ρ c (Proc.devRef .tc main_arg2))))).trans (w2_arg2 m ρ c))
theorem w6_arg5 (c : Dev nD) : W6 m ρ c (Proc.devRef .tc main_arg5) = (m ((c.tc : Thread nD τ).loc main_arg5)) :=
  (W6_of_ne m ρ c main_arg5 (by decide)).trans (((by unwritten : W5 m ρ c (Proc.devRef .tc main_arg5) = W4 m ρ c (Proc.devRef .tc main_arg5)).trans ((by unwritten : W4 m ρ c (Proc.devRef .tc main_arg5) = W3 m ρ c (Proc.devRef .tc main_arg5)).trans ((by unwritten : W3 m ρ c (Proc.devRef .tc main_arg5) = W2 m ρ c (Proc.devRef .tc main_arg5))))).trans (w2_arg5 m ρ c))
theorem w6_arg6 (c : Dev nD) : W6 m ρ c (Proc.devRef .tc main_arg6) = (m ((c.tc : Thread nD τ).loc main_arg6)) :=
  (W6_of_ne m ρ c main_arg6 (by decide)).trans (((by unwritten : W5 m ρ c (Proc.devRef .tc main_arg6) = W4 m ρ c (Proc.devRef .tc main_arg6)).trans ((by unwritten : W4 m ρ c (Proc.devRef .tc main_arg6) = W3 m ρ c (Proc.devRef .tc main_arg6)).trans ((by unwritten : W3 m ρ c (Proc.devRef .tc main_arg6) = W2 m ρ c (Proc.devRef .tc main_arg6))))).trans (w2_arg6 m ρ c))
theorem w6_arg7 (c : Dev nD) : W6 m ρ c (Proc.devRef .tc main_arg7) = (m ((c.tc : Thread nD τ).loc main_arg7)) :=
  (W6_of_ne m ρ c main_arg7 (by decide)).trans (((by unwritten : W5 m ρ c (Proc.devRef .tc main_arg7) = W4 m ρ c (Proc.devRef .tc main_arg7)).trans ((by unwritten : W4 m ρ c (Proc.devRef .tc main_arg7) = W3 m ρ c (Proc.devRef .tc main_arg7)).trans ((by unwritten : W3 m ρ c (Proc.devRef .tc main_arg7) = W2 m ρ c (Proc.devRef .tc main_arg7))))).trans (w2_arg7 m ρ c))
theorem w6_arg8 (c : Dev nD) : W6 m ρ c (Proc.devRef .tc main_arg8) = (m ((c.tc : Thread nD τ).loc main_arg8)) :=
  (W6_of_ne m ρ c main_arg8 (by decide)).trans (((by unwritten : W5 m ρ c (Proc.devRef .tc main_arg8) = W4 m ρ c (Proc.devRef .tc main_arg8)).trans ((by unwritten : W4 m ρ c (Proc.devRef .tc main_arg8) = W3 m ρ c (Proc.devRef .tc main_arg8)).trans ((by unwritten : W3 m ρ c (Proc.devRef .tc main_arg8) = W2 m ρ c (Proc.devRef .tc main_arg8))))).trans (w2_arg8 m ρ c))
theorem w6_arg10 (c : Dev nD) : W6 m ρ c (Proc.devRef .tc main_arg10) = (m ((c.tc : Thread nD τ).loc main_arg10)) :=
  (W6_of_ne m ρ c main_arg10 (by decide)).trans (((by unwritten : W5 m ρ c (Proc.devRef .tc main_arg10) = W4 m ρ c (Proc.devRef .tc main_arg10)).trans ((by unwritten : W4 m ρ c (Proc.devRef .tc main_arg10) = W3 m ρ c (Proc.devRef .tc main_arg10)).trans ((by unwritten : W3 m ρ c (Proc.devRef .tc main_arg10) = W2 m ρ c (Proc.devRef .tc main_arg10))))).trans (w2_arg10 m ρ c))
theorem w6_arg11 (c : Dev nD) : W6 m ρ c (Proc.devRef .tc main_arg11) = (m ((c.tc : Thread nD τ).loc main_arg11)) :=
  (W6_of_ne m ρ c main_arg11 (by decide)).trans (((by unwritten : W5 m ρ c (Proc.devRef .tc main_arg11) = W4 m ρ c (Proc.devRef .tc main_arg11)).trans ((by unwritten : W4 m ρ c (Proc.devRef .tc main_arg11) = W3 m ρ c (Proc.devRef .tc main_arg11)).trans ((by unwritten : W3 m ρ c (Proc.devRef .tc main_arg11) = W2 m ρ c (Proc.devRef .tc main_arg11))))).trans (w2_arg11 m ρ c))
theorem w6_arg12 (c : Dev nD) : W6 m ρ c (Proc.devRef .tc main_arg12) = (m ((c.tc : Thread nD τ).loc main_arg12)) :=
  (W6_of_ne m ρ c main_arg12 (by decide)).trans (((by unwritten : W5 m ρ c (Proc.devRef .tc main_arg12) = W4 m ρ c (Proc.devRef .tc main_arg12)).trans ((by unwritten : W4 m ρ c (Proc.devRef .tc main_arg12) = W3 m ρ c (Proc.devRef .tc main_arg12)).trans ((by unwritten : W3 m ρ c (Proc.devRef .tc main_arg12) = W2 m ρ c (Proc.devRef .tc main_arg12))))).trans (w2_arg12 m ρ c))

end Cert.KernelIdeal.RegionValue

end
-- ==== Proof.KFinal2.lean ====
/-
  The second graph-convolution call, read as an array.  Its grid has twenty points; point `t` loads rows `5000·t … 5000·t + 4999` of the
  node array and of the aggregated array, the two weight matrices and the four rows whole, and stores `ginRow` of each
  loaded row.  Row `r` of the result depends on row `r` of the operands only, and the twenty blocks tile the 100000 rows:
  the output array after the call is `Gin` of the arrays the call found.
-/
import proofs.«427842_j14078902796336_1_alg».proof.Proof.Gen.KernelIdeal.Frame
import proofs.«427842_j14078902796336_1_alg».proof.Proof.KPay

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gin

variable (V : (c : Dev nD) → (b : Ref sig .tc) → Buf (Elt Ideal) ((c : Thread nD τ).loc b))

/-- The zero offsets of a whole-block rectangle, as the constant function. -/
private theorem zero_off : (![0, 0] : Fin 2 → Nat) = fun _ => 0 := funext fun a => by fin_cases a <;> rfl

/-- The block index maps over the twenty points: the two row-block windows and the output sit at block row `t`, block
    column `0`; the matrices and the rows are whole, at block `(0, 0)`. -/
private theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Entry `(p, k)` of the node array's block at point `t` is entry `(5000·t + p, k)` of the node array. -/
private theorem read_node (c : Dev nD) (t : Fin cfg2.N) (p : Fin 5000) (k : Fin 128) (r : Fin 100000)
    (hr : r.val = 5000 * t.val + p.val) :
    iblk2 (F := Ideal) V c 0 t (ix2 p k) = V c main_v32 (ix2 r k) := by
  show V c main_v32 (((cfg2.win 0).blk t).view.emb (ix2 p k)) = V c main_v32 (ix2 r k)
  refine congrArg _ ?_
  obtain ⟨e0, e1, -⟩ := block_index t
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The same for the aggregated array. -/
private theorem read_agg (c : Dev nD) (t : Fin cfg2.N) (p : Fin 5000) (k : Fin 128) (r : Fin 100000)
    (hr : r.val = 5000 * t.val + p.val) :
    iblk2 (F := Ideal) V c 1 t (ix2 p k) = V c main_v36 (ix2 r k) := by
  show V c main_v36 (((cfg2.win 1).blk t).view.emb (ix2 p k)) = V c main_v36 (ix2 r k)
  refine congrArg _ ?_
  obtain ⟨-, -, e0, e1, -⟩ := block_index t
  funext a; apply Fin.ext
  match a with
  | ⟨0, _⟩ => show win2_1.index t (0 : Fin 2) * 5000 + 1 * p.val = r.val; omega
  | ⟨1, _⟩ => show win2_1.index t (1 : Fin 2) * 128 + 1 * k.val = k.val; omega

/-- The first weight matrix is loaded whole. -/
private theorem read_w1 (c : Dev nD) (t : Fin cfg2.N) : iblk2 (F := Ideal) V c 2 t = V c main_v39 := by
  funext y
  show V c main_v39 (((cfg2.win 2).blk t).view.emb y) = V c main_v39 y
  refine congrArg _ ?_
  obtain ⟨-, -, -, -, e0, e1, -⟩ := block_index t
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The first bias row is loaded whole. -/
private theorem read_b1 (c : Dev nD) (t : Fin cfg2.N) : iblk2 (F := Ideal) V c 3 t = V c main_v51 := by
  funext y
  show V c main_v51 (((cfg2.win 3).blk t).view.emb y) = V c main_v51 y
  refine congrArg _ ?_
  obtain ⟨-, -, -, -, -, -, e0, e1, -⟩ := block_index t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The scale row is loaded whole. -/
private theorem read_sc (c : Dev nD) (t : Fin cfg2.N) : iblk2 (F := Ideal) V c 4 t = V c main_v52 := by
  funext y
  show V c main_v52 (((cfg2.win 4).blk t).view.emb y) = V c main_v52 y
  refine congrArg _ ?_
  obtain ⟨-, -, -, -, -, -, -, -, e0, e1, -⟩ := block_index t
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The shift row is loaded whole. -/
private theorem read_be (c : Dev nD) (t : Fin cfg2.N) : iblk2 (F := Ideal) V c 5 t = V c main_v53 := by
  funext y
  show V c main_v53 (((cfg2.win 5).blk t).view.emb y) = V c main_v53 y
  refine congrArg _ ?_
  obtain ⟨-, -, -, -, -, -, -, -, -, -, e0, e1, -⟩ := block_index t
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- The second weight matrix is loaded whole. -/
private theorem read_w2 (c : Dev nD) (t : Fin cfg2.N) : iblk2 (F := Ideal) V c 6 t = V c main_v48 := by
  funext y
  show V c main_v48 (((cfg2.win 6).blk t).view.emb y) = V c main_v48 y
  refine congrArg _ ?_
  obtain ⟨-, -, -, -, -, -, -, -, -, -, -, -, e0, e1, -⟩ := block_index t
  funext a; apply Fin.ext
  match a with
  | ⟨0, _⟩ => show win2_6.index t (0 : Fin 2) * 128 + 1 * (y 0).val = (y 0).val; omega
  | ⟨1, _⟩ => show win2_6.index t (1 : Fin 2) * 128 + 1 * (y 1).val = (y 1).val; omega

/-- The second bias row is loaded whole. -/
private theorem read_b2 (c : Dev nD) (t : Fin cfg2.N) : iblk2 (F := Ideal) V c 7 t = V c main_v54 := by
  funext y
  show V c main_v54 (((cfg2.win 7).blk t).view.emb y) = V c main_v54 y
  refine congrArg _ ?_
  obtain ⟨-, -, -, -, -, -, -, -, -, -, -, -, -, -, e0, e1, -⟩ := block_index t
  funext a; apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Entry `(p, q)` of the output's block at point `t` sits at `(5000·t + p, q)` in the output array. -/
private theorem out_emb (t : Fin cfg2.N) (p : Fin 5000) (q : Fin 128) (r : Fin 100000)
    (hr : r.val = 5000 * t.val + p.val) :
    ((cfg2.win 8).blk t).view.emb (ix2 p q) = ix2 r q := by
  obtain ⟨-, -, -, -, -, -, -, -, -, -, -, -, -, -, -, -, e0, e1⟩ := block_index t
  funext a; apply Fin.ext
  match a with
  | ⟨0, _⟩ => show win2_8.index t (0 : Fin 2) * 5000 + 1 * p.val = r.val; omega
  | ⟨1, _⟩ => show win2_8.index t (1 : Fin 2) * 128 + 1 * q.val = q.val; omega

/-- `ginRow` depends on its operands only through their values. -/
private theorem ginRow_congr {hr hr' ar ar' : Fin 128 → EReal} {w1 w1' : FVec Ideal (Rows 128) .f32}
    {b1 b1' sc sc' be be' : FVec Ideal (⟨2, ![1, 128]⟩ : Shape) .f32} {w2 w2' : FVec Ideal (Rows 128) .f32}
    {b2 b2' : FVec Ideal (⟨2, ![1, 128]⟩ : Shape) .f32} (q : Fin 128)
    (h0 : hr = hr') (h1 : ar = ar') (h2 : w1 = w1') (h3 : b1 = b1') (h4 : sc = sc') (h5 : be = be') (h6 : w2 = w2')
    (h7 : b2 = b2') :
    ginRow hr ar w1 b1 sc be w2 b2 q = ginRow hr' ar' w1' b1' sc' be' w2' b2' q := by
  subst h0 h1 h2 h3 h4 h5 h6 h7; rfl

/-- What point `t` writes back is block `t` of `Gin` of the arrays the call found. -/
private theorem flushed_eq (c : Dev nD) (t : Fin cfg2.N) :
    (dat2 (F := Ideal) V c).flushed 8 t = ((cfg2.win 8).blk t).view.read (Elt Ideal)
      (Gin (V c main_v32) (V c main_v36) (V c main_v39) (V c main_v51) (V c main_v52) (V c main_v53) (V c main_v48) (V c main_v54)) := by
  show (cfg2.win 8).cut (grid2.coords t) ((dat2 V c).after 8 t) = _
  rw [after2_8]
  unfold out2_8
  rw [View.canon_unit_zero zero_off]
  simp only [View.ld_unit_zero (S := S5000x128) zero_off, View.ld_unit_zero (S := S128x128) zero_off,
    View.ld_unit_zero (S := S1x128) zero_off]
  funext y
  obtain ⟨p, q, rfl⟩ : ∃ (p : Fin 5000) (q : Fin 128), y = ix2 p q := ⟨y 0, y 1, eq_ix2 y⟩
  have hN : cfg2.N = 20 := N_2
  have ht : t.val < 20 := hN ▸ t.isLt
  have hp : p.val < 5000 := p.isLt
  let r : Fin 100000 := ⟨5000 * t.val + p.val, by omega⟩
  have hr : r.val = 5000 * t.val + p.val := rfl
  show k2_pay1 (F := Ideal) (iblk2 V c 0 t) (iblk2 V c 1 t) (iblk2 V c 2 t) (iblk2 V c 3 t) (iblk2 V c 4 t) (iblk2 V c 5 t)
      (iblk2 V c 6 t) (iblk2 V c 7 t) (ix2 p q)
    = Gin (V c main_v32) (V c main_v36) (V c main_v39) (V c main_v51) (V c main_v52) (V c main_v53) (V c main_v48) (V c main_v54)
      (((cfg2.win 8).blk t).view.emb (ix2 p q))
  refine (KPay.pay2_apply _ _ _ _ _ _ _ _ p q).trans ?_
  refine Eq.trans ?_ (congrArg _ (out_emb t p q r hr).symm)
  refine Eq.trans ?_ (Gin_apply _ _ _ _ _ _ _ _ r q).symm
  exact ginRow_congr q (funext fun k => read_node V c t p k r hr) (funext fun k => read_agg V c t p k r hr)
    (read_w1 V c t) (read_b1 V c t) (read_sc V c t) (read_be V c t) (read_w2 V c t) (read_b2 V c t)

/-- An index of the output array is in point `t`'s block iff each coordinate is in the block's range on its axis. -/
private theorem mem_blk (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v55).slice (win2_8.rect t)).set ↔ _
  rw [View.set_slice_whole, Rect.mem_set_unit]
  exact Iff.rfl

/-- Row `r` of the output array lies in the block of point `r / 5000`, whatever the column: the twenty blocks of
    5000 rows tile the 100000 rows, and a block has all 128 columns. -/
private theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 20 := N_2
  have hlt : (i 0).val / 5000 < cfg2.N := by omega
  refine ⟨⟨(i 0).val / 5000, hlt⟩, flush2_8 _, ?_⟩
  rw [mem_blk]
  obtain ⟨-, -, -, -, -, -, -, -, -, -, -, -, -, -, -, -, e0, e1⟩ := block_index ⟨(i 0).val / 5000, hlt⟩
  have e0' : win2_8.index ⟨(i 0).val / 5000, hlt⟩ (0 : Fin 2) = (i 0).val / 5000 := e0
  intro a
  match a with
  | ⟨0, _⟩ =>
    show win2_8.index ⟨(i 0).val / 5000, hlt⟩ (0 : Fin 2) * 5000 ≤ (i 0).val
      ∧ (i 0).val < win2_8.index ⟨(i 0).val / 5000, hlt⟩ (0 : Fin 2) * 5000 + 5000
    omega
  | ⟨1, _⟩ =>
    show win2_8.index ⟨(i 0).val / 5000, hlt⟩ (1 : Fin 2) * 128 ≤ (i 1).val
      ∧ (i 1).val < win2_8.index ⟨(i 0).val / 5000, hlt⟩ (1 : Fin 2) * 128 + 128
    omega

/-- The output array of the third call after all twenty points. -/
theorem final2 (c : Dev nD) :
    (dat2 (F := Ideal) V c).arrAt 8 cfg2.N
      = Gin (V c main_v32) (V c main_v36) (V c main_v39) (V c main_v51) (V c main_v52) (V c main_v53) (V c main_v48) (V c main_v54) :=
  (dat2 (F := Ideal) V c).arrAt_eq_of_cover 8
    (Gin (V c main_v32) (V c main_v36) (V c main_v39) (V c main_v51) (V c main_v52) (V c main_v53) (V c main_v48) (V c main_v54))
    (fun t _ => flushed_eq V c t) cover

end Cert.KernelIdeal.RegionValue

end
-- ==== Proof.KS2.lean ====
/-
  The second graph-convolution layer in the kernel program: the host gathers the first layer's rows along the sources
  (overwriting out-of-range rows), sums them into the targets and slices the layer's weights; the call leaves `Gin` of
  those in its output array.  Everything a later layer reads is untouched.
-/
import proofs.«427842_j14078902796336_1_alg».proof.Proof.Gen.KernelIdeal.Frame
import proofs.«427842_j14078902796336_1_alg».proof.Proof.KS1
import proofs.«427842_j14078902796336_1_alg».proof.Proof.KFinal2
import proofs.«427842_j14078902796336_1_alg».proof.Proof.Net
import Idealize.ShloMosaic.Lib.StableHlo.Run

set_option maxRecDepth 16384
-- reading a buffer back through a stretch of some twenty host operations walks the stretch once per operand
set_option maxHeartbeats 4000000

noncomputable section

namespace Cert.KernelIdeal.RegionValue

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg)

/-! ## Layer 2: what the call finds -/

/-- The outlined gather's buffers, read at their own types. -/
theorem w9_toBuf_t {F : FTy → Type} [FloatOps F] (v : FVec F S1600000x128 .f32) :
    (TRef.of main_v33 : TRef sig ⟨S1600000x128, .f32⟩).toBuf (Val := Elt F) v = v := rfl
theorem w9_ofBuf_h {F : FTy → Type} [FloatOps F] (v : FVec F S100000x128 .f32) :
    (TRef.of main_v32 : TRef sig ⟨S100000x128, .f32⟩).ofBuf (Val := Elt F) v = v := rfl
set_option maxRecDepth 100000 in
/-- The stretch that gathers the rows along the sources, at any float family: the previous array's rows at the wrapped
    sources, out-of-range rows overwritten. -/
theorem w9_take_gen {F : FTy → Type} [FloatOps F] (mF : (ℓ : Loc nD τ sig) → Buf (Elt F) ℓ) (c : Dev nD) :
    W7 mF ρ c (Proc.devRef .tc main_v33) = takeRowsG (W6 mF ρ c (Proc.devRef .tc main_v32)) (W6 mF ρ c (Proc.devRef .tc main_v1)) := by
  have e : W7 mF ρ c (Proc.devRef .tc main_v33)
      = (TRef.of main_v33 : TRef sig ⟨S1600000x128, .f32⟩).toBuf (takeRowsG
          ((TRef.of main_v32 : TRef sig ⟨S100000x128, .f32⟩).ofBuf (W6 mF ρ c (Proc.devRef .tc main_v32)))
          ((TRef.of main_v1 : TRef sig ⟨S1600000, .i32⟩).ofBuf (W6 mF ρ c (Proc.devRef .tc main_v1)))) := by
    dsimp only [W7, hostOps2]
    after_results_simp
    simp only [ofBuf_toBuf]
    rfl
  exact e.trans ((w9_toBuf_t _).trans (by rw [w9_ofBuf_h, ofBuf_v1]))
/-- … and at the ideal values, of the array and the sources as they are there. -/
theorem w9_take (c : Dev nD) : W7 m ρ c (Proc.devRef .tc main_v33) = gatK m c (hid1 m c) :=
  (w9_take_gen ρ m c).trans (by rw [w6_h m ρ c, w6_v1 m ρ c]; rfl)
theorem w9_r_v3 (c : Dev nD) : W7 m ρ c (Proc.devRef .tc main_v3) = dstOf (m ((c.tc : Thread nD τ).loc main_arg1)) :=
  ((by unwritten : W7 m ρ c (Proc.devRef .tc main_v3) = W6 m ρ c (Proc.devRef .tc main_v3))).trans (w6_v3 m ρ c)
theorem w9_r_arg7 (c : Dev nD) : W7 m ρ c (Proc.devRef .tc main_arg7) = (m ((c.tc : Thread nD τ).loc main_arg7)) :=
  ((by unwritten : W7 m ρ c (Proc.devRef .tc main_arg7) = W6 m ρ c (Proc.devRef .tc main_arg7))).trans (w6_arg7 m ρ c)
theorem w9_r_arg8 (c : Dev nD) : W7 m ρ c (Proc.devRef .tc main_arg8) = (m ((c.tc : Thread nD τ).loc main_arg8)) :=
  ((by unwritten : W7 m ρ c (Proc.devRef .tc main_arg8) = W6 m ρ c (Proc.devRef .tc main_arg8))).trans (w6_arg8 m ρ c)
theorem w9_r_arg10 (c : Dev nD) : W7 m ρ c (Proc.devRef .tc main_arg10) = (m ((c.tc : Thread nD τ).loc main_arg10)) :=
  ((by unwritten : W7 m ρ c (Proc.devRef .tc main_arg10) = W6 m ρ c (Proc.devRef .tc main_arg10))).trans (w6_arg10 m ρ c)
theorem w9_r_arg11 (c : Dev nD) : W7 m ρ c (Proc.devRef .tc main_arg11) = (m ((c.tc : Thread nD τ).loc main_arg11)) :=
  ((by unwritten : W7 m ρ c (Proc.devRef .tc main_arg11) = W6 m ρ c (Proc.devRef .tc main_arg11))).trans (w6_arg11 m ρ c)
theorem w9_r_arg12 (c : Dev nD) : W7 m ρ c (Proc.devRef .tc main_arg12) = (m ((c.tc : Thread nD τ).loc main_arg12)) :=
  ((by unwritten : W7 m ρ c (Proc.devRef .tc main_arg12) = W6 m ρ c (Proc.devRef .tc main_arg12))).trans (w6_arg12 m ρ c)
theorem w9_r_v9 (c : Dev nD) : W7 m ρ c (Proc.devRef .tc main_v9) = scaleOf (m ((c.tc : Thread nD τ).loc main_arg9)) :=
  ((by unwritten : W7 m ρ c (Proc.devRef .tc main_v9) = W6 m ρ c (Proc.devRef .tc main_v9))).trans (w6_v9 m ρ c)

/-- The node array is still the previous layer's. -/
theorem w9_e_h (c : Dev nD) : W8 m ρ c (Proc.devRef .tc main_v32) = hid1 m c :=
  ((by unwritten : W8 m ρ c (Proc.devRef .tc main_v32) = W7 m ρ c (Proc.devRef .tc main_v32)).trans ((by unwritten : W7 m ρ c (Proc.devRef .tc main_v32) = W6 m ρ c (Proc.devRef .tc main_v32)))).trans (w6_h m ρ c)
/-- The gathered rows summed into the targets. -/
theorem w9_e_agg (c : Dev nD) : W8 m ρ c (Proc.devRef .tc main_v36) = aggOf (gatK m c (hid1 m c)) (dstOf (m ((c.tc : Thread nD τ).loc main_arg1))) := by
  have e : W8 m ρ c (Proc.devRef .tc main_v36) = aggOf (W7 m ρ c (Proc.devRef .tc main_v33)) (W7 m ρ c (Proc.devRef .tc main_v3)) := by
    dsimp only [W8, hostOps2_1]; after_results_simp <;> rfl
  exact e.trans (by rw [w9_take m ρ c, w9_r_v3 m ρ c])
theorem w9_e_w1 (c : Dev nD) : W8 m ρ c (Proc.devRef .tc main_v39) = matT (m ((c.tc : Thread nD τ).loc main_arg7)) ![1, 0, 0] slices_S3x128x128_S1x128x128_1_0_0 := by
  have e : W8 m ρ c (Proc.devRef .tc main_v39) = matT (W7 m ρ c (Proc.devRef .tc main_arg7)) ![1, 0, 0] slices_S3x128x128_S1x128x128_1_0_0 := by
    dsimp only [W8, hostOps2_1]; after_results_simp <;> rfl
  exact e.trans (by rw [w9_r_arg7 m ρ c])
theorem w9_e_b1 (c : Dev nD) : W8 m ρ c (Proc.devRef .tc main_v51) = rowK (m ((c.tc : Thread nD τ).loc main_arg8)) ![1, 0] slices_S3x128_S1x128_1_0 := by
  have e : W8 m ρ c (Proc.devRef .tc main_v51) = rowK (W7 m ρ c (Proc.devRef .tc main_arg8)) ![1, 0] slices_S3x128_S1x128_1_0 := by
    dsimp only [W8, hostOps2_1]; after_results_simp <;> rfl
  exact e.trans (by rw [w9_r_arg8 m ρ c])
theorem w9_e_sc (c : Dev nD) : W8 m ρ c (Proc.devRef .tc main_v52) = rowK (scaleOf (m ((c.tc : Thread nD τ).loc main_arg9))) ![1, 0] slices_S3x128_S1x128_1_0 := by
  have e : W8 m ρ c (Proc.devRef .tc main_v52) = rowK (W7 m ρ c (Proc.devRef .tc main_v9)) ![1, 0] slices_S3x128_S1x128_1_0 := by
    dsimp only [W8, hostOps2_1]; after_results_simp <;> rfl
  exact e.trans (by rw [w9_r_v9 m ρ c])
theorem w9_e_be (c : Dev nD) : W8 m ρ c (Proc.devRef .tc main_v53) = rowK (m ((c.tc : Thread nD τ).loc main_arg10)) ![1, 0] slices_S3x128_S1x128_1_0 := by
  have e : W8 m ρ c (Proc.devRef .tc main_v53) = rowK (W7 m ρ c (Proc.devRef .tc main_arg10)) ![1, 0] slices_S3x128_S1x128_1_0 := by
    dsimp only [W8, hostOps2_1]; after_results_simp <;> rfl
  exact e.trans (by rw [w9_r_arg10 m ρ c])
theorem w9_e_w2 (c : Dev nD) : W8 m ρ c (Proc.devRef .tc main_v48) = matT (m ((c.tc : Thread nD τ).loc main_arg11)) ![1, 0, 0] slices_S3x128x128_S1x128x128_1_0_0 := by
  have e : W8 m ρ c (Proc.devRef .tc main_v48) = matT (W7 m ρ c (Proc.devRef .tc main_arg11)) ![1, 0, 0] slices_S3x128x128_S1x128x128_1_0_0 := by
    dsimp only [W8, hostOps2_1]; after_results_simp <;> rfl
  exact e.trans (by rw [w9_r_arg11 m ρ c])
theorem w9_e_b2 (c : Dev nD) : W8 m ρ c (Proc.devRef .tc main_v54) = rowK (m ((c.tc : Thread nD τ).loc main_arg12)) ![1, 0] slices_S3x128_S1x128_1_0 := by
  have e : W8 m ρ c (Proc.devRef .tc main_v54) = rowK (W7 m ρ c (Proc.devRef .tc main_arg12)) ![1, 0] slices_S3x128_S1x128_1_0 := by
    dsimp only [W8, hostOps2_1]; after_results_simp <;> rfl
  exact e.trans (by rw [w9_r_arg12 m ρ c])

/-! ## Layer 2: what the call leaves -/

/-- The call's output array: the layer applied to the node array before it. -/
theorem w9_h (c : Dev nD) : W9 m ρ c (Proc.devRef .tc main_v55) = hid2 m c := by
  refine (W9_arr m ρ c 8).trans ((final2 (V8 m ρ) c).trans ?_)
  show Gin (W8 m ρ c (Proc.devRef .tc main_v32)) (W8 m ρ c (Proc.devRef .tc main_v36)) (W8 m ρ c (Proc.devRef .tc main_v39)) (W8 m ρ c (Proc.devRef .tc main_v51)) (W8 m ρ c (Proc.devRef .tc main_v52)) (W8 m ρ c (Proc.devRef .tc main_v53)) (W8 m ρ c (Proc.devRef .tc main_v48)) (W8 m ρ c (Proc.devRef .tc main_v54)) = _
  rw [w9_e_h m ρ c, w9_e_agg m ρ c, w9_e_w1 m ρ c, w9_e_b1 m ρ c, w9_e_sc m ρ c, w9_e_be m ρ c, w9_e_w2 m ρ c, w9_e_b2 m ρ c]; rfl
theorem w9_v1 (c : Dev nD) : W9 m ρ c (Proc.devRef .tc main_v1) = srcOf (m ((c.tc : Thread nD τ).loc main_arg1)) :=
  (W9_of_ne m ρ c main_v1 (by decide)).trans (((by unwritten : W8 m ρ c (Proc.devRef .tc main_v1) = W7 m ρ c (Proc.devRef .tc main_v1)).trans ((by unwritten : W7 m ρ c (Proc.devRef .tc main_v1) = W6 m ρ c (Proc.devRef .tc main_v1)))).trans (w6_v1 m ρ c))
theorem w9_v3 (c : Dev nD) : W9 m ρ c (Proc.devRef .tc main_v3) = dstOf (m ((c.tc : Thread nD τ).loc main_arg1)) :=
  (W9_of_ne m ρ c main_v3 (by decide)).trans (((by unwritten : W8 m ρ c (Proc.devRef .tc main_v3) = W7 m ρ c (Proc.devRef .tc main_v3)).trans ((by unwritten : W7 m ρ c (Proc.devRef .tc main_v3) = W6 m ρ c (Proc.devRef .tc main_v3)))).trans (w6_v3 m ρ c))
theorem w9_v9 (c : Dev nD) : W9 m ρ c (Proc.devRef .tc main_v9) = scaleOf (m ((c.tc : Thread nD τ).loc main_arg9)) :=
  (W9_of_ne m ρ c main_v9 (by decide)).trans (((by unwritten : W8 m ρ c (Proc.devRef .tc main_v9) = W7 m ρ c (Proc.devRef .tc main_v9)).trans ((by unwritten : W7 m ρ c (Proc.devRef .tc main_v9) = W6 m ρ c (Proc.devRef .tc main_v9)))).trans (w6_v9 m ρ c))
theorem w9_arg2 (c : Dev nD) : W9 m ρ c (Proc.devRef .tc main_arg2) = (m ((c.tc : Thread nD τ).loc main_arg2)) :=
  (W9_of_ne m ρ c main_arg2 (by decide)).trans (((by unwritten : W8 m ρ c (Proc.devRef .tc main_arg2) = W7 m ρ c (Proc.devRef .tc main_arg2)).trans ((by unwritten : W7 m ρ c (Proc.devRef .tc main_arg2) = W6 m ρ c (Proc.devRef .tc main_arg2)))).trans (w6_arg2 m ρ c))
theorem w9_arg5 (c : Dev nD) : W9 m ρ c (Proc.devRef .tc main_arg5) = (m ((c.tc : Thread nD τ).loc main_arg5)) :=
  (W9_of_ne m ρ c main_arg5 (by decide)).trans (((by unwritten : W8 m ρ c (Proc.devRef .tc main_arg5) = W7 m ρ c (Proc.devRef .tc main_arg5)).trans ((by unwritten : W7 m ρ c (Proc.devRef .tc main_arg5) = W6 m ρ c (Proc.devRef .tc main_arg5)))).trans (w6_arg5 m ρ c))
theorem w9_arg6 (c : Dev nD) : W9 m ρ c (Proc.devRef .tc main_arg6) = (m ((c.tc : Thread nD τ).loc main_arg6)) :=
  (W9_of_ne m ρ c main_arg6 (by decide)).trans (((by unwritten : W8 m ρ c (Proc.devRef .tc main_arg6) = W7 m ρ c (Proc.devRef .tc main_arg6)).trans ((by unwritten : W7 m ρ c (Proc.devRef .tc main_arg6) = W6 m ρ c (Proc.devRef .tc main_arg6)))).trans (w6_arg6 m ρ c))
theorem w9_arg7 (c : Dev nD) : W9 m ρ c (Proc.devRef .tc main_arg7) = (m ((c.tc : Thread nD τ).loc main_arg7)) :=
  (W9_of_ne m ρ c main_arg7 (by decide)).trans (((by unwritten : W8 m ρ c (Proc.devRef .tc main_arg7) = W7 m ρ c (Proc.devRef .tc main_arg7)).trans ((by unwritten : W7 m ρ c (Proc.devRef .tc main_arg7) = W6 m ρ c (Proc.devRef .tc main_arg7)))).trans (w6_arg7 m ρ c))
theorem w9_arg8 (c : Dev nD) : W9 m ρ c (Proc.devRef .tc main_arg8) = (m ((c.tc : Thread nD τ).loc main_arg8)) :=
  (W9_of_ne m ρ c main_arg8 (by decide)).trans (((by unwritten : W8 m ρ c (Proc.devRef .tc main_arg8) = W7 m ρ c (Proc.devRef .tc main_arg8)).trans ((by unwritten : W7 m ρ c (Proc.devRef .tc main_arg8) = W6 m ρ c (Proc.devRef .tc main_arg8)))).trans (w6_arg8 m ρ c))
theorem w9_arg10 (c : Dev nD) : W9 m ρ c (Proc.devRef .tc main_arg10) = (m ((c.tc : Thread nD τ).loc main_arg10)) :=
  (W9_of_ne m ρ c main_arg10 (by decide)).trans (((by unwritten : W8 m ρ c (Proc.devRef .tc main_arg10) = W7 m ρ c (Proc.devRef .tc main_arg10)).trans ((by unwritten : W7 m ρ c (Proc.devRef .tc main_arg10) = W6 m ρ c (Proc.devRef .tc main_arg10)))).trans (w6_arg10 m ρ c))
theorem w9_arg11 (c : Dev nD) : W9 m ρ c (Proc.devRef .tc main_arg11) = (m ((c.tc : Thread nD τ).loc main_arg11)) :=
  (W9_of_ne m ρ c main_arg11 (by decide)).trans (((by unwritten : W8 m ρ c (Proc.devRef .tc main_arg11) = W7 m ρ c (Proc.devRef .tc main_arg11)).trans ((by unwritten : W7 m ρ c (Proc.devRef .tc main_arg11) = W6 m ρ c (Proc.devRef .tc main_arg11)))).trans (w6_arg11 m ρ c))
theorem w9_arg12 (c : Dev nD) : W9 m ρ c (Proc.devRef .tc main_arg12) = (m ((c.tc : Thread nD τ).loc main_arg12)) :=
  (W9_of_ne m ρ c main_arg12 (by decide)).trans (((by unwritten : W8 m ρ c (Proc.devRef .tc main_arg12) = W7 m ρ c (Proc.devRef .tc main_arg12)).trans ((by unwritten : W7 m ρ c (Proc.devRef .tc main_arg12) = W6 m ρ c (Proc.devRef .tc main_arg12)))).trans (w6_arg12 m ρ c))

end Cert.KernelIdeal.RegionValue

end
-- ==== Proof.KFinal3.lean ====
/-
  The third graph-convolution call, read as an array.  Its grid has twenty points; point `t` loads rows `5000·t … 5000·t + 4999` of the
  node array and of the aggregated array, the two weight matrices and the four rows whole, and stores `ginRow` of each
  loaded row.  Row `r` of the result depends on row `r` of the operands only, and the twenty blocks tile the 100000 rows:
  the output array after the call is `Gin` of the arrays the call found.
-/
import proofs.«427842_j14078902796336_1_alg».proof.Proof.Gen.KernelIdeal.Frame
import proofs.«427842_j14078902796336_1_alg».proof.Proof.KPay

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gin

variable (V : (c : Dev nD) → (b : Ref sig .tc) → Buf (Elt Ideal) ((c : Thread nD τ).loc b))

/-- The zero offsets of a whole-block rectangle, as the constant function. -/
private theorem zero_off : (![0, 0] : Fin 2 → Nat) = fun _ => 0 := funext fun a => by fin_cases a <;> rfl

/-- The block index maps over the twenty points: the two row-block windows and the output sit at block row `t`, block
    column `0`; the matrices and the rows are whole, at block `(0, 0)`. -/
private theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Entry `(p, k)` of the node array's block at point `t` is entry `(5000·t + p, k)` of the node array. -/
private theorem read_node (c : Dev nD) (t : Fin cfg3.N) (p : Fin 5000) (k : Fin 128) (r : Fin 100000)
    (hr : r.val = 5000 * t.val + p.val) :
    iblk3 (F := Ideal) V c 0 t (ix2 p k) = V c main_v55 (ix2 r k) := by
  show V c main_v55 (((cfg3.win 0).blk t).view.emb (ix2 p k)) = V c main_v55 (ix2 r k)
  refine congrArg _ ?_
  obtain ⟨e0, e1, -⟩ := block_index t
  funext a; apply Fin.ext
  match a with
  | ⟨0, _⟩ => show win3_0.index t (0 : Fin 2) * 5000 + 1 * p.val = r.val; omega
  | ⟨1, _⟩ => show win3_0.index t (1 : Fin 2) * 128 + 1 * k.val = k.val; omega

/-- The same for the aggregated array. -/
private theorem read_agg (c : Dev nD) (t : Fin cfg3.N) (p : Fin 5000) (k : Fin 128) (r : Fin 100000)
    (hr : r.val = 5000 * t.val + p.val) :
    iblk3 (F := Ideal) V c 1 t (ix2 p k) = V c main_v59 (ix2 r k) := by
  show V c main_v59 (((cfg3.win 1).blk t).view.emb (ix2 p k)) = V c main_v59 (ix2 r k)
  refine congrArg _ ?_
  obtain ⟨-, -, e0, e1, -⟩ := block_index t
  funext a; apply Fin.ext
  match a with
  | ⟨0, _⟩ => show win3_1.index t (0 : Fin 2) * 5000 + 1 * p.val = r.val; omega
  | ⟨1, _⟩ => show win3_1.index t (1 : Fin 2) * 128 + 1 * k.val = k.val; omega

/-- The first weight matrix is loaded whole. -/
private theorem read_w1 (c : Dev nD) (t : Fin cfg3.N) : iblk3 (F := Ideal) V c 2 t = V c main_v62 := by
  funext y
  show V c main_v62 (((cfg3.win 2).blk t).view.emb y) = V c main_v62 y
  refine congrArg _ ?_
  obtain ⟨-, -, -, -, e0, e1, -⟩ := block_index t
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The first bias row is loaded whole. -/
private theorem read_b1 (c : Dev nD) (t : Fin cfg3.N) : iblk3 (F := Ideal) V c 3 t = V c main_v74 := by
  funext y
  show V c main_v74 (((cfg3.win 3).blk t).view.emb y) = V c main_v74 y
  refine congrArg _ ?_
  obtain ⟨-, -, -, -, -, -, e0, e1, -⟩ := block_index t
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The scale row is loaded whole. -/
private theorem read_sc (c : Dev nD) (t : Fin cfg3.N) : iblk3 (F := Ideal) V c 4 t = V c main_v75 := by
  funext y
  show V c main_v75 (((cfg3.win 4).blk t).view.emb y) = V c main_v75 y
  refine congrArg _ ?_
  obtain ⟨-, -, -, -, -, -, -, -, e0, e1, -⟩ := block_index t
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The shift row is loaded whole. -/
private theorem read_be (c : Dev nD) (t : Fin cfg3.N) : iblk3 (F := Ideal) V c 5 t = V c main_v76 := by
  funext y
  show V c main_v76 (((cfg3.win 5).blk t).view.emb y) = V c main_v76 y
  refine congrArg _ ?_
  obtain ⟨-, -, -, -, -, -, -, -, -, -, e0, e1, -⟩ := block_index t
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- The second weight matrix is loaded whole. -/
private theorem read_w2 (c : Dev nD) (t : Fin cfg3.N) : iblk3 (F := Ideal) V c 6 t = V c main_v71 := by
  funext y
  show V c main_v71 (((cfg3.win 6).blk t).view.emb y) = V c main_v71 y
  refine congrArg _ ?_
  obtain ⟨-, -, -, -, -, -, -, -, -, -, -, -, e0, e1, -⟩ := block_index t
  funext a; apply Fin.ext
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- The second bias row is loaded whole. -/
private theorem read_b2 (c : Dev nD) (t : Fin cfg3.N) : iblk3 (F := Ideal) V c 7 t = V c main_v77 := by
  funext y
  show V c main_v77 (((cfg3.win 7).blk t).view.emb y) = V c main_v77 y
  refine congrArg _ ?_
  obtain ⟨-, -, -, -, -, -, -, -, -, -, -, -, -, -, e0, e1, -⟩ := block_index t
  funext a; apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Entry `(p, q)` of the output's block at point `t` sits at `(5000·t + p, q)` in the output array. -/
private theorem out_emb (t : Fin cfg3.N) (p : Fin 5000) (q : Fin 128) (r : Fin 100000)
    (hr : r.val = 5000 * t.val + p.val) :
    ((cfg3.win 8).blk t).view.emb (ix2 p q) = ix2 r q := by
  obtain ⟨-, -, -, -, -, -, -, -, -, -, -, -, -, -, -, -, e0, e1⟩ := block_index t
  funext a; apply Fin.ext
  match a with
  | ⟨0, _⟩ => show win3_8.index t (0 : Fin 2) * 5000 + 1 * p.val = r.val; omega
  | ⟨1, _⟩ => show win3_8.index t (1 : Fin 2) * 128 + 1 * q.val = q.val; omega

/-- `ginRow` depends on its operands only through their values. -/
private theorem ginRow_congr {hr hr' ar ar' : Fin 128 → EReal} {w1 w1' : FVec Ideal (Rows 128) .f32}
    {b1 b1' sc sc' be be' : FVec Ideal (⟨2, ![1, 128]⟩ : Shape) .f32} {w2 w2' : FVec Ideal (Rows 128) .f32}
    {b2 b2' : FVec Ideal (⟨2, ![1, 128]⟩ : Shape) .f32} (q : Fin 128)
    (h0 : hr = hr') (h1 : ar = ar') (h2 : w1 = w1') (h3 : b1 = b1') (h4 : sc = sc') (h5 : be = be') (h6 : w2 = w2')
    (h7 : b2 = b2') :
    ginRow hr ar w1 b1 sc be w2 b2 q = ginRow hr' ar' w1' b1' sc' be' w2' b2' q := by
  subst h0 h1 h2 h3 h4 h5 h6 h7; rfl

/-- What point `t` writes back is block `t` of `Gin` of the arrays the call found. -/
private theorem flushed_eq (c : Dev nD) (t : Fin cfg3.N) :
    (dat3 (F := Ideal) V c).flushed 8 t = ((cfg3.win 8).blk t).view.read (Elt Ideal)
      (Gin (V c main_v55) (V c main_v59) (V c main_v62) (V c main_v74) (V c main_v75) (V c main_v76) (V c main_v71) (V c main_v77)) := by
  show (cfg3.win 8).cut (grid3.coords t) ((dat3 V c).after 8 t) = _
  rw [after3_8]
  unfold out3_8
  rw [View.canon_unit_zero zero_off]
  simp only [View.ld_unit_zero (S := S5000x128) zero_off, View.ld_unit_zero (S := S128x128) zero_off,
    View.ld_unit_zero (S := S1x128) zero_off]
  funext y
  obtain ⟨p, q, rfl⟩ : ∃ (p : Fin 5000) (q : Fin 128), y = ix2 p q := ⟨y 0, y 1, eq_ix2 y⟩
  have hN : cfg3.N = 20 := N_3
  have ht : t.val < 20 := hN ▸ t.isLt
  have hp : p.val < 5000 := p.isLt
  let r : Fin 100000 := ⟨5000 * t.val + p.val, by omega⟩
  have hr : r.val = 5000 * t.val + p.val := rfl
  show k3_pay1 (F := Ideal) (iblk3 V c 0 t) (iblk3 V c 1 t) (iblk3 V c 2 t) (iblk3 V c 3 t) (iblk3 V c 4 t) (iblk3 V c 5 t)
      (iblk3 V c 6 t) (iblk3 V c 7 t) (ix2 p q)
    = Gin (V c main_v55) (V c main_v59) (V c main_v62) (V c main_v74) (V c main_v75) (V c main_v76) (V c main_v71) (V c main_v77)
      (((cfg3.win 8).blk t).view.emb (ix2 p q))
  refine (KPay.pay3_apply _ _ _ _ _ _ _ _ p q).trans ?_
  refine Eq.trans ?_ (congrArg _ (out_emb t p q r hr).symm)
  refine Eq.trans ?_ (Gin_apply _ _ _ _ _ _ _ _ r q).symm
  exact ginRow_congr q (funext fun k => read_node V c t p k r hr) (funext fun k => read_agg V c t p k r hr)
    (read_w1 V c t) (read_b1 V c t) (read_sc V c t) (read_be V c t) (read_w2 V c t) (read_b2 V c t)

/-- An index of the output array is in point `t`'s block iff each coordinate is in the block's range on its axis. -/
private theorem mem_blk (t : Fin cfg3.N) (i : S100000x128.Idx) :
    i ∈ ((cfg3.win 8).blk t).view.set ↔ ∀ a : Fin 2, win3_8.index t a * S5000x128.size a ≤ (i a).val
      ∧ (i a).val < win3_8.index t a * S5000x128.size a + S5000x128.size a := by
  show i ∈ ((View.whole main_v78).slice (win3_8.rect t)).set ↔ _
  rw [View.set_slice_whole, Rect.mem_set_unit]
  exact Iff.rfl

/-- Row `r` of the output array lies in the block of point `r / 5000`, whatever the column: the twenty blocks of
    5000 rows tile the 100000 rows, and a block has all 128 columns. -/
private theorem cover (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  have hN : cfg3.N = 20 := N_3
  have hlt : (i 0).val / 5000 < cfg3.N := by omega
  refine ⟨⟨(i 0).val / 5000, hlt⟩, flush3_8 _, ?_⟩
  rw [mem_blk]
  obtain ⟨-, -, -, -, -, -, -, -, -, -, -, -, -, -, -, -, e0, e1⟩ := block_index ⟨(i 0).val / 5000, hlt⟩
  have e0' : win3_8.index ⟨(i 0).val / 5000, hlt⟩ (0 : Fin 2) = (i 0).val / 5000 := e0
  intro a
  match a with
  | ⟨0, _⟩ =>
    show win3_8.index ⟨(i 0).val / 5000, hlt⟩ (0 : Fin 2) * 5000 ≤ (i 0).val
      ∧ (i 0).val < win3_8.index ⟨(i 0).val / 5000, hlt⟩ (0 : Fin 2) * 5000 + 5000
    omega
  | ⟨1, _⟩ =>
    show win3_8.index ⟨(i 0).val / 5000, hlt⟩ (1 : Fin 2) * 128 ≤ (i 1).val
      ∧ (i 1).val < win3_8.index ⟨(i 0).val / 5000, hlt⟩ (1 : Fin 2) * 128 + 128
    omega

/-- The output array of the fourth call after all twenty points. -/
theorem final3 (c : Dev nD) :
    (dat3 (F := Ideal) V c).arrAt 8 cfg3.N
      = Gin (V c main_v55) (V c main_v59) (V c main_v62) (V c main_v74) (V c main_v75) (V c main_v76) (V c main_v71) (V c main_v77) :=
  (dat3 (F := Ideal) V c).arrAt_eq_of_cover 8
    (Gin (V c main_v55) (V c main_v59) (V c main_v62) (V c main_v74) (V c main_v75) (V c main_v76) (V c main_v71) (V c main_v77))
    (fun t _ => flushed_eq V c t) cover

end Cert.KernelIdeal.RegionValue

end
-- ==== Proof.KS3.lean ====
/-
  The third graph-convolution layer in the kernel program: the host gathers the second layer's rows along the sources
  (overwriting out-of-range rows), sums them into the targets and slices the layer's weights; the call leaves `Gin` of
  those in its output array.  What the output transform and the sum into graphs read is untouched.
-/
import proofs.«427842_j14078902796336_1_alg».proof.Proof.Gen.KernelIdeal.Frame
import proofs.«427842_j14078902796336_1_alg».proof.Proof.KS2
import proofs.«427842_j14078902796336_1_alg».proof.Proof.KFinal3
import proofs.«427842_j14078902796336_1_alg».proof.Proof.Net
import Idealize.ShloMosaic.Lib.StableHlo.Run

set_option maxRecDepth 16384
-- reading a buffer back through a stretch of some twenty host operations walks the stretch once per operand
set_option maxHeartbeats 4000000

noncomputable section

namespace Cert.KernelIdeal.RegionValue

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg)

/-! ## Layer 3: what the call finds -/

/-- The outlined gather's buffers, read at their own types. -/
theorem w12_toBuf_t {F : FTy → Type} [FloatOps F] (v : FVec F S1600000x128 .f32) :
    (TRef.of main_v56 : TRef sig ⟨S1600000x128, .f32⟩).toBuf (Val := Elt F) v = v := rfl
theorem w12_ofBuf_h {F : FTy → Type} [FloatOps F] (v : FVec F S100000x128 .f32) :
    (TRef.of main_v55 : TRef sig ⟨S100000x128, .f32⟩).ofBuf (Val := Elt F) v = v := rfl
set_option maxRecDepth 100000 in
/-- The stretch that gathers the rows along the sources, at any float family: the previous array's rows at the wrapped
    sources, out-of-range rows overwritten. -/
theorem w12_take_gen {F : FTy → Type} [FloatOps F] (mF : (ℓ : Loc nD τ sig) → Buf (Elt F) ℓ) (c : Dev nD) :
    W10 mF ρ c (Proc.devRef .tc main_v56) = takeRowsG (W9 mF ρ c (Proc.devRef .tc main_v55)) (W9 mF ρ c (Proc.devRef .tc main_v1)) := by
  have e : W10 mF ρ c (Proc.devRef .tc main_v56)
      = (TRef.of main_v56 : TRef sig ⟨S1600000x128, .f32⟩).toBuf (takeRowsG
          ((TRef.of main_v55 : TRef sig ⟨S100000x128, .f32⟩).ofBuf (W9 mF ρ c (Proc.devRef .tc main_v55)))
          ((TRef.of main_v1 : TRef sig ⟨S1600000, .i32⟩).ofBuf (W9 mF ρ c (Proc.devRef .tc main_v1)))) := by
    dsimp only [W10, hostOps3]
    after_results_simp
    simp only [ofBuf_toBuf]
    rfl
  exact e.trans ((w12_toBuf_t _).trans (by rw [w12_ofBuf_h, ofBuf_v1]))
/-- … and at the ideal values, of the array and the sources as they are there. -/
theorem w12_take (c : Dev nD) : W10 m ρ c (Proc.devRef .tc main_v56) = gatK m c (hid2 m c) :=
  (w12_take_gen ρ m c).trans (by rw [w9_h m ρ c, w9_v1 m ρ c]; rfl)
theorem w12_r_v3 (c : Dev nD) : W10 m ρ c (Proc.devRef .tc main_v3) = dstOf (m ((c.tc : Thread nD τ).loc main_arg1)) :=
  ((by unwritten : W10 m ρ c (Proc.devRef .tc main_v3) = W9 m ρ c (Proc.devRef .tc main_v3))).trans (w9_v3 m ρ c)
theorem w12_r_arg7 (c : Dev nD) : W10 m ρ c (Proc.devRef .tc main_arg7) = (m ((c.tc : Thread nD τ).loc main_arg7)) :=
  ((by unwritten : W10 m ρ c (Proc.devRef .tc main_arg7) = W9 m ρ c (Proc.devRef .tc main_arg7))).trans (w9_arg7 m ρ c)
theorem w12_r_arg8 (c : Dev nD) : W10 m ρ c (Proc.devRef .tc main_arg8) = (m ((c.tc : Thread nD τ).loc main_arg8)) :=
  ((by unwritten : W10 m ρ c (Proc.devRef .tc main_arg8) = W9 m ρ c (Proc.devRef .tc main_arg8))).trans (w9_arg8 m ρ c)
theorem w12_r_arg10 (c : Dev nD) : W10 m ρ c (Proc.devRef .tc main_arg10) = (m ((c.tc : Thread nD τ).loc main_arg10)) :=
  ((by unwritten : W10 m ρ c (Proc.devRef .tc main_arg10) = W9 m ρ c (Proc.devRef .tc main_arg10))).trans (w9_arg10 m ρ c)
theorem w12_r_arg11 (c : Dev nD) : W10 m ρ c (Proc.devRef .tc main_arg11) = (m ((c.tc : Thread nD τ).loc main_arg11)) :=
  ((by unwritten : W10 m ρ c (Proc.devRef .tc main_arg11) = W9 m ρ c (Proc.devRef .tc main_arg11))).trans (w9_arg11 m ρ c)
theorem w12_r_arg12 (c : Dev nD) : W10 m ρ c (Proc.devRef .tc main_arg12) = (m ((c.tc : Thread nD τ).loc main_arg12)) :=
  ((by unwritten : W10 m ρ c (Proc.devRef .tc main_arg12) = W9 m ρ c (Proc.devRef .tc main_arg12))).trans (w9_arg12 m ρ c)
theorem w12_r_v9 (c : Dev nD) : W10 m ρ c (Proc.devRef .tc main_v9) = scaleOf (m ((c.tc : Thread nD τ).loc main_arg9)) :=
  ((by unwritten : W10 m ρ c (Proc.devRef .tc main_v9) = W9 m ρ c (Proc.devRef .tc main_v9))).trans (w9_v9 m ρ c)

/-- The node array is still the previous layer's. -/
theorem w12_e_h (c : Dev nD) : W11 m ρ c (Proc.devRef .tc main_v55) = hid2 m c :=
  ((by unwritten : W11 m ρ c (Proc.devRef .tc main_v55) = W10 m ρ c (Proc.devRef .tc main_v55)).trans ((by unwritten : W10 m ρ c (Proc.devRef .tc main_v55) = W9 m ρ c (Proc.devRef .tc main_v55)))).trans (w9_h m ρ c)
/-- The gathered rows summed into the targets. -/
theorem w12_e_agg (c : Dev nD) : W11 m ρ c (Proc.devRef .tc main_v59) = aggOf (gatK m c (hid2 m c)) (dstOf (m ((c.tc : Thread nD τ).loc main_arg1))) := by
  have e : W11 m ρ c (Proc.devRef .tc main_v59) = aggOf (W10 m ρ c (Proc.devRef .tc main_v56)) (W10 m ρ c (Proc.devRef .tc main_v3)) := by
    dsimp only [W11, hostOps3_1]; after_results_simp <;> rfl
  exact e.trans (by rw [w12_take m ρ c, w12_r_v3 m ρ c])
theorem w12_e_w1 (c : Dev nD) : W11 m ρ c (Proc.devRef .tc main_v62) = matT (m ((c.tc : Thread nD τ).loc main_arg7)) ![2, 0, 0] slices_S3x128x128_S1x128x128_2_0_0 := by
  have e : W11 m ρ c (Proc.devRef .tc main_v62) = matT (W10 m ρ c (Proc.devRef .tc main_arg7)) ![2, 0, 0] slices_S3x128x128_S1x128x128_2_0_0 := by
    dsimp only [W11, hostOps3_1]; after_results_simp <;> rfl
  exact e.trans (by rw [w12_r_arg7 m ρ c])
theorem w12_e_b1 (c : Dev nD) : W11 m ρ c (Proc.devRef .tc main_v74) = rowK (m ((c.tc : Thread nD τ).loc main_arg8)) ![2, 0] slices_S3x128_S1x128_2_0 := by
  have e : W11 m ρ c (Proc.devRef .tc main_v74) = rowK (W10 m ρ c (Proc.devRef .tc main_arg8)) ![2, 0] slices_S3x128_S1x128_2_0 := by
    dsimp only [W11, hostOps3_1]; after_results_simp <;> rfl
  exact e.trans (by rw [w12_r_arg8 m ρ c])
theorem w12_e_sc (c : Dev nD) : W11 m ρ c (Proc.devRef .tc main_v75) = rowK (scaleOf (m ((c.tc : Thread nD τ).loc main_arg9))) ![2, 0] slices_S3x128_S1x128_2_0 := by
  have e : W11 m ρ c (Proc.devRef .tc main_v75) = rowK (W10 m ρ c (Proc.devRef .tc main_v9)) ![2, 0] slices_S3x128_S1x128_2_0 := by
    dsimp only [W11, hostOps3_1]; after_results_simp <;> rfl
  exact e.trans (by rw [w12_r_v9 m ρ c])
theorem w12_e_be (c : Dev nD) : W11 m ρ c (Proc.devRef .tc main_v76) = rowK (m ((c.tc : Thread nD τ).loc main_arg10)) ![2, 0] slices_S3x128_S1x128_2_0 := by
  have e : W11 m ρ c (Proc.devRef .tc main_v76) = rowK (W10 m ρ c (Proc.devRef .tc main_arg10)) ![2, 0] slices_S3x128_S1x128_2_0 := by
    dsimp only [W11, hostOps3_1]; after_results_simp <;> rfl
  exact e.trans (by rw [w12_r_arg10 m ρ c])
theorem w12_e_w2 (c : Dev nD) : W11 m ρ c (Proc.devRef .tc main_v71) = matT (m ((c.tc : Thread nD τ).loc main_arg11)) ![2, 0, 0] slices_S3x128x128_S1x128x128_2_0_0 := by
  have e : W11 m ρ c (Proc.devRef .tc main_v71) = matT (W10 m ρ c (Proc.devRef .tc main_arg11)) ![2, 0, 0] slices_S3x128x128_S1x128x128_2_0_0 := by
    dsimp only [W11, hostOps3_1]; after_results_simp <;> rfl
  exact e.trans (by rw [w12_r_arg11 m ρ c])
theorem w12_e_b2 (c : Dev nD) : W11 m ρ c (Proc.devRef .tc main_v77) = rowK (m ((c.tc : Thread nD τ).loc main_arg12)) ![2, 0] slices_S3x128_S1x128_2_0 := by
  have e : W11 m ρ c (Proc.devRef .tc main_v77) = rowK (W10 m ρ c (Proc.devRef .tc main_arg12)) ![2, 0] slices_S3x128_S1x128_2_0 := by
    dsimp only [W11, hostOps3_1]; after_results_simp <;> rfl
  exact e.trans (by rw [w12_r_arg12 m ρ c])

/-! ## Layer 3: what the call leaves -/

/-- The call's output array: the layer applied to the node array before it. -/
theorem w12_h (c : Dev nD) : W12 m ρ c (Proc.devRef .tc main_v78) = hid3 m c := by
  refine (W12_arr m ρ c 8).trans ((final3 (V11 m ρ) c).trans ?_)
  show Gin (W11 m ρ c (Proc.devRef .tc main_v55)) (W11 m ρ c (Proc.devRef .tc main_v59)) (W11 m ρ c (Proc.devRef .tc main_v62)) (W11 m ρ c (Proc.devRef .tc main_v74)) (W11 m ρ c (Proc.devRef .tc main_v75)) (W11 m ρ c (Proc.devRef .tc main_v76)) (W11 m ρ c (Proc.devRef .tc main_v71)) (W11 m ρ c (Proc.devRef .tc main_v77)) = _
  rw [w12_e_h m ρ c, w12_e_agg m ρ c, w12_e_w1 m ρ c, w12_e_b1 m ρ c, w12_e_sc m ρ c, w12_e_be m ρ c, w12_e_w2 m ρ c, w12_e_b2 m ρ c]; rfl
theorem w12_arg2 (c : Dev nD) : W12 m ρ c (Proc.devRef .tc main_arg2) = (m ((c.tc : Thread nD τ).loc main_arg2)) :=
  (W12_of_ne m ρ c main_arg2 (by decide)).trans (((by unwritten : W11 m ρ c (Proc.devRef .tc main_arg2) = W10 m ρ c (Proc.devRef .tc main_arg2)).trans ((by unwritten : W10 m ρ c (Proc.devRef .tc main_arg2) = W9 m ρ c (Proc.devRef .tc main_arg2)))).trans (w9_arg2 m ρ c))
theorem w12_arg5 (c : Dev nD) : W12 m ρ c (Proc.devRef .tc main_arg5) = (m ((c.tc : Thread nD τ).loc main_arg5)) :=
  (W12_of_ne m ρ c main_arg5 (by decide)).trans (((by unwritten : W11 m ρ c (Proc.devRef .tc main_arg5) = W10 m ρ c (Proc.devRef .tc main_arg5)).trans ((by unwritten : W10 m ρ c (Proc.devRef .tc main_arg5) = W9 m ρ c (Proc.devRef .tc main_arg5)))).trans (w9_arg5 m ρ c))
theorem w12_arg6 (c : Dev nD) : W12 m ρ c (Proc.devRef .tc main_arg6) = (m ((c.tc : Thread nD τ).loc main_arg6)) :=
  (W12_of_ne m ρ c main_arg6 (by decide)).trans (((by unwritten : W11 m ρ c (Proc.devRef .tc main_arg6) = W10 m ρ c (Proc.devRef .tc main_arg6)).trans ((by unwritten : W10 m ρ c (Proc.devRef .tc main_arg6) = W9 m ρ c (Proc.devRef .tc main_arg6)))).trans (w9_arg6 m ρ c))

end Cert.KernelIdeal.RegionValue

end
-- ==== Proof.KFinal4.lean ====
/-
  The output transform's call, read as an array.  Its grid has twenty points; point `t` loads rows `5000·t … 5000·t + 4999` of
  the last layer's array, the transposed weight matrix and the bias row whole, and stores `linRow` of
  each loaded row.  The twenty blocks tile the 100000 rows: the output array after the call is `Lin` of the arrays
  the call found.
-/
import proofs.«427842_j14078902796336_1_alg».proof.Proof.Gen.KernelIdeal.Frame
import proofs.«427842_j14078902796336_1_alg».proof.Proof.KPay

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gin

variable (V : (c : Dev nD) → (b : Ref sig .tc) → Buf (Elt Ideal) ((c : Thread nD τ).loc b))

/-- The offsets of an access to a whole block are zero on both axes. -/
private theorem offsets_zero4 : (![0, 0] : Fin 2 → Nat) = fun _ => 0 := funext fun a => by fin_cases a <;> rfl

/-- The block index maps over the twenty points: the block of rows and the output block sit at block row `t`, block
    column 0; the weight matrix and the bias row are their arrays' one block. -/
private theorem block_index4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry `(p, k)` of the block of rows at point `t` is entry `(5000·t + p, k)` of the array. -/
private theorem rows_block4 (c : Dev nD) (t : Fin cfg4.N) (ht : t.val < 20) (p : Fin 5000) (k : Fin 128) :
    (iblk4 V c 0 t : FVec Ideal S5000x128 .f32) (ix2 p k)
      = (V c main_v78 : FVec Ideal S100000x128 .f32) (ix2 ⟨5000 * t.val + p.val, by omega⟩ k) := by
  obtain ⟨e0, e1, -⟩ := block_index4 t
  unfold iblk4
  rw [View.read_apply]
  show V c main_v78 _ = V c main_v78 _
  congr 1
  funext a
  apply Fin.ext
  match a with
  | ⟨0, _⟩ => show win4_0.index t (0 : Fin 2) * 5000 + 1 * p.val = 5000 * t.val + p.val; omega
  | ⟨1, _⟩ => show win4_0.index t (1 : Fin 2) * 128 + 1 * k.val = k.val; omega

/-- The weight matrix's block at any point is the whole matrix. -/
private theorem weights_block4 (c : Dev nD) (t : Fin cfg4.N) :
    (iblk4 V c 1 t : FVec Ideal S128x128 .f32) = V c main_v79 := by
  obtain ⟨-, -, e0, e1, -⟩ := block_index4 t
  funext y
  unfold iblk4
  rw [View.read_apply]
  show V c main_v79 _ = V c main_v79 y
  congr 1
  funext a
  apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The bias row's block at any point is the whole row. -/
private theorem bias_block4 (c : Dev nD) (t : Fin cfg4.N) :
    (iblk4 V c 2 t : FVec Ideal S1x128 .f32) = V c main_v80 := by
  obtain ⟨-, -, -, -, e0, e1, -⟩ := block_index4 t
  funext y
  unfold iblk4
  rw [View.read_apply]
  show V c main_v80 _ = V c main_v80 y
  congr 1
  funext a
  apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- What a point stores at `(p, q)`, once its three blocks are read off the arrays: the output transform of the arrays
    at row `5000·t + p`. -/
private theorem stored_eq4 (X : FVec Ideal S100000x128 .f32) (W : FVec Ideal S128x128 .f32) (B : FVec Ideal S1x128 .f32)
    (x : FVec Ideal S5000x128 .f32) (w : FVec Ideal S128x128 .f32) (b : FVec Ideal S1x128 .f32) (t : ℕ) (ht : t < 20)
    (hx : ∀ (p : Fin 5000) (k : Fin 128), x (ix2 p k) = X (ix2 ⟨5000 * t + p.val, by omega⟩ k))
    (hw : w = W) (hb : b = B) (p : Fin 5000) (q : Fin 128) :
    k4_pay1 (F := Ideal) x w b (ix2 p q) = Lin X W B (ix2 ⟨5000 * t + p.val, by omega⟩ q) := by
  subst hw hb
  refine (KPay.pay4_apply x w b p q).trans ?_
  rw [Lin_apply]
  have hrow : rowOf x p = rowOf X ⟨5000 * t + p.val, by omega⟩ := funext fun k => hx p k
  rw [hrow]

/-- What point `t` writes back is its block of the output transform of the arrays the call found. -/
private theorem flushed4_eq (c : Dev nD) (t : Fin cfg4.N) :
    (dat4 (F := Ideal) V c).flushed 3 t
      = ((cfg4.win 3).blk t).view.read (Elt Ideal) (Lin (V c main_v78) (V c main_v79) (V c main_v80)) := by
  show (cfg4.win 3).cut (grid4.coords t) ((dat4 V c).after 3 t) = _
  rw [after4_3]
  unfold out4_3
  rw [View.canon_unit_zero offsets_zero4]
  simp only [View.ld_unit_zero (S := S5000x128) offsets_zero4, View.ld_unit_zero (S := S128x128) offsets_zero4,
    View.ld_unit_zero (S := S1x128) offsets_zero4]
  have hN : cfg4.N = 20 := N_4
  have ht : t.val < 20 := by have := t.isLt; omega
  obtain ⟨-, -, -, -, -, -, e0, e1⟩ := block_index4 t
  funext y
  obtain ⟨p, q, rfl⟩ : ∃ (p : Fin 5000) (q : Fin 128), y = ix2 p q := ⟨y 0, y 1, eq_ix2 y⟩
  refine (stored_eq4 (V c main_v78) (V c main_v79) (V c main_v80) (iblk4 V c 0 t) (iblk4 V c 1 t) (iblk4 V c 2 t)
    t.val ht (rows_block4 V c t ht) (weights_block4 V c t) (bias_block4 V c t) p q).trans ?_
  show Lin (V c main_v78) (V c main_v79) (V c main_v80) _
    = Lin (V c main_v78) (V c main_v79) (V c main_v80) (((cfg4.win 3).blk t).view.emb (ix2 p q))
  congr 1
  funext a
  apply Fin.ext
  match a with
  | ⟨0, _⟩ => show 5000 * t.val + p.val = win4_3.index t (0 : Fin 2) * 5000 + 1 * p.val; omega
  | ⟨1, _⟩ => show q.val = win4_3.index t (1 : Fin 2) * 128 + 1 * q.val; omega

/-- An entry of the output array is in point `t`'s block iff each coordinate is in the block's range on its axis. -/
private theorem mem_block4 (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v81).slice (win4_3.rect t)).set ↔ _
  rw [View.set_slice_whole, Rect.mem_set_unit]
  exact Iff.rfl

/-- The twenty blocks tile the array: row `r` is in the block of point `r / 5000`, and a block has all 128 columns. -/
private theorem cover4 (i : S100000x128.Idx) :
    ∃ t : Fin cfg4.N, (cfg4.win 3).flush t = true ∧ i ∈ ((cfg4.win 3).blk t).view.set := by
  have hN : cfg4.N = 20 := N_4
  have hi0 : (i 0).val < 100000 := idx2_lt0 i
  have hi1 : (i 1).val < 128 := idx2_lt1 i
  obtain ⟨t, ht⟩ : ∃ t : Fin cfg4.N, t.val = (i 0).val / 5000 := ⟨⟨(i 0).val / 5000, by omega⟩, rfl⟩
  obtain ⟨-, -, -, -, -, -, e0, e1⟩ := block_index4 t
  refine ⟨t, flush4_3 t, ?_⟩
  rw [mem_block4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 128 ≤ (i 1).val ∧ (i 1).val < win4_3.index t (1 : Fin 2) * 128 + 128
    omega

/-- The output array of the fifth call after all twenty points. -/
theorem final4 (c : Dev nD) :
    (dat4 (F := Ideal) V c).arrAt 3 cfg4.N = Lin (V c main_v78) (V c main_v79) (V c main_v80) :=
  (dat4 (F := Ideal) V c).arrAt_eq_of_cover 3 (Lin (V c main_v78) (V c main_v79) (V c main_v80))
    (fun t _ => flushed4_eq V c t) cover4

end Cert.KernelIdeal.RegionValue

end
-- ==== Proof.KStages.lean ====
/-
  The kernel program's result buffer, read back through its fifteen segments: host operations compute the sources,
  targets, transposed weights and rows; each call's output array is `LinRelu`, `Gin` or `Lin` of the arrays it found;
  between the calls the rows are gathered along the sources (out-of-range rows overwritten), summed into the targets, and
  the next layer's operands sliced out of the stacked weights.  Composed, the last buffer holds the network at the
  filling gather.
-/
import proofs.«427842_j14078902796336_1_alg».proof.Proof.Gen.KernelIdeal.Frame
import proofs.«427842_j14078902796336_1_alg».proof.Proof.KS3
import proofs.«427842_j14078902796336_1_alg».proof.Proof.KFinal4
import proofs.«427842_j14078902796336_1_alg».proof.Proof.Net
import Idealize.ShloMosaic.Lib.StableHlo.Run

set_option maxRecDepth 16384
-- reading a buffer back through a stretch of some twenty host operations walks the stretch once per operand
set_option maxHeartbeats 4000000

noncomputable section

namespace Cert.KernelIdeal.RegionValue

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg)

/-! ## The output transform -/

theorem w13_h (c : Dev nD) : W13 m ρ c (Proc.devRef .tc main_v78) = hid3 m c :=
  (by unwritten : W13 m ρ c (Proc.devRef .tc main_v78) = W12 m ρ c (Proc.devRef .tc main_v78)).trans (w12_h m ρ c)

theorem w13_w (c : Dev nD) : W13 m ρ c (Proc.devRef .tc main_v79) = transpose S128x128 [1, 0] (m ((c.tc : Thread nD τ).loc main_arg5)) transposes_S128x128_S128x128_1_0 := by
  have e : W13 m ρ c (Proc.devRef .tc main_v79) = transpose S128x128 [1, 0] (W12 m ρ c (Proc.devRef .tc main_arg5)) transposes_S128x128_S128x128_1_0 := by
    dsimp only [W13, hostOps4]; after_results_simp <;> rfl
  exact e.trans (by rw [w12_arg5 m ρ c])

theorem w13_b (c : Dev nD) : W13 m ρ c (Proc.devRef .tc main_v80) = shapeCast S1x128 (m ((c.tc : Thread nD τ).loc main_arg6)) shapeCasts_S128_S1x128 := by
  have e : W13 m ρ c (Proc.devRef .tc main_v80) = shapeCast S1x128 (W12 m ρ c (Proc.devRef .tc main_arg6)) shapeCasts_S128_S1x128 := by
    dsimp only [W13, hostOps4]; after_results_simp <;> rfl
  exact e.trans (by rw [w12_arg6 m ρ c])

/-- The last call's output array: the output transform of the third layer's array. -/
theorem w14_out (c : Dev nD) :
    W14 m ρ c (Proc.devRef .tc main_v81)
      = Lin (hid3 m c) (transpose S128x128 [1, 0] (m ((c.tc : Thread nD τ).loc main_arg5)) transposes_S128x128_S128x128_1_0) (shapeCast S1x128 (m ((c.tc : Thread nD τ).loc main_arg6)) shapeCasts_S128_S1x128) := by
  refine (W14_arr m ρ c 3).trans ((final4 (V13 m ρ) c).trans ?_)
  show Lin (W13 m ρ c (Proc.devRef .tc main_v78)) (W13 m ρ c (Proc.devRef .tc main_v79)) (W13 m ρ c (Proc.devRef .tc main_v80)) = _
  rw [w13_h m ρ c, w13_w m ρ c, w13_b m ρ c]

theorem w14_arg2 (c : Dev nD) : W14 m ρ c (Proc.devRef .tc main_arg2) = (m ((c.tc : Thread nD τ).loc main_arg2)) :=
  (W14_of_ne m ρ c main_arg2 (by decide)).trans ((by unwritten : W13 m ρ c (Proc.devRef .tc main_arg2) = W12 m ρ c (Proc.devRef .tc main_arg2)).trans (w12_arg2 m ρ c))

/-! ## The sum into graphs -/

/-- The result buffer at the last boundary is the network, at the gather that fills out-of-range rows, of the launch contents
    of the thirteen arguments. -/
theorem kernel_value (c : Dev nD) :
    W15 (F := Ideal) m ρ c (Proc.devRef .tc main_v84)
      = net (fun H => takeRows H (srcOf (m ((c.tc : Thread nD τ).loc main_arg1)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have e : W15 m ρ c (Proc.devRef .tc main_v84)
      = Host.scatterAdd scatter_S512x128_S100000x1_S100000x128_1_0_0_1
          (broadcastInDim S512x128 ![] bcast_S_S512x128 (constant (F := Ideal) S_ .f32 0x00000000#32))
          (broadcastInDim S100000x1 ![0] bcast_S100000_S100000x1_0 (W14 m ρ c (Proc.devRef .tc main_arg2)))
          (W14 m ρ c (Proc.devRef .tc main_v81)) := by
    dsimp only [W15, hostOps5]; after_results_simp <;> rfl
  rw [e, w14_arg2 m ρ c, w14_out m ρ c]; rfl

end Cert.KernelIdeal.RegionValue

end
-- ==== Proof.RefSide.lean ====
/- The reference's run (every execution ends with its result at one composed term of the arguments) and that term read stage
   by stage: gathered here for the modules that compare them with the network. -/
import proofs.«427842_j14078902796336_1_alg».proof.Proof.Gen.ReferenceIdeal.Run
import proofs.«427842_j14078902796336_1_alg».proof.Proof.Gen.ReferenceIdeal.Read
-- ==== Proof.RefPat.lean ====
/-
  The reference's dense stretches, read as the row functions.

  `X · W` on the host (contracting the columns of `X` with the rows of `W`) is at entry `(r, c)` the sum
  `∑ k, X[r, k] · W[k, c]`; a 1 × 128 row laid down 100000 rows adds `b[0, c]`.  So a product plus a laid-down row is
  `Lin`, with the maximum with zero `LinRelu`, and the five-step stretch of a graph-convolution layer `Gin`.  A
  128-vector made a 1 × 128 row by a broadcast along the second axis and by a reshape are the same row.
-/
import proofs.«427842_j14078902796336_1_alg».proof.Proof.Gen.ReferenceIdeal
import proofs.«427842_j14078902796336_1_alg».proof.Proof.Gen.ReferenceIdeal.Read
import proofs.«427842_j14078902796336_1_alg».proof.Proof.Spec
import Idealize.ShloMosaic.PureOps.Ideal.Laws
import Idealize.ShloMosaic.Lib.Pipeline.Value
import Idealize.ShloMosaic.Lib.ValueLayout

noncomputable section

namespace Cert.Gin.RefPat

open Idealize.ShloMosaic Idealize.ShloMosaic.ValueIdx Cert.ReferenceIdeal Cert.ReferenceIdeal.Gen Cert.Gin

/-- The host product at entry `(r, c)`: the contraction runs over one axis of extent 128, so the sum over the
    contraction index is the sum over `k : Fin 128` of `X[r, k] · W[k, c]`. -/
private theorem dot_apply (X : FVec Ideal S100000x128 .f32) (w : FVec Ideal S128x128 .f32) (r : Fin 100000) (c : Fin 128) :
    Host.dotGeneral dot_S100000x128_S128x128_S100000x128_1_0_0_1_n_n none X w (ix2 r c)
      = ∑ k : Fin 128, X (ix2 r k) * w (ix2 k c) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r c)
      ((contrEquiv1 dot_S100000x128_S128x128_S100000x128_1_0_0_1_n_n 128 rfl rfl).symm k) = ix2 r k :=
    funext fun a => Fin.ext (by
      match a with
      | ⟨0, _⟩ => exact Read.lhs_main_v5_0 _ _
      | ⟨1, _⟩ => exact (Read.lhs_main_v5_1 _ _).trans hk)
  have er : dot_S100000x128_S128x128_S100000x128_1_0_0_1_n_n.rhsIdx (ix2 r c)
      ((contrEquiv1 dot_S100000x128_S128x128_S100000x128_1_0_0_1_n_n 128 rfl rfl).symm k) = ix2 k c :=
    funext fun a => Fin.ext (by
      match a with
      | ⟨0, _⟩ => exact (Read.rhs_main_v5_0 _ _).trans hk
      | ⟨1, _⟩ => exact Read.rhs_main_v5_1 _ _)
  rw [el, er]

/-- A 1 × 128 row laid down 100000 rows reads, at `(r, c)`, the row at `(0, c)`. -/
private theorem row_apply (b : FVec Ideal S1x128 .f32) (r : Fin 100000) (c : Fin 128) :
    broadcastInDim S100000x128 ![0, 1] bcast_S1x128_S100000x128_0_1 b (ix2 r c) = b (ix2 0 c) :=
  broadcastInDim_apply _ bcast_S1x128_S100000x128_0_1 b (ix2 r c) (ix2 0 c) (fun a => match a with
    | ⟨0, _⟩ => by show 0 = if (1 : Nat) = 1 then 0 else r.val; rw [if_pos rfl]
    | ⟨1, _⟩ => by show c.val = if (128 : Nat) = 1 then 0 else c.val; rw [if_neg (by decide)])

/-- The scalar zero laid everywhere reads that zero at every entry. -/
private theorem zero_apply (i : S100000x128.Idx) :
    broadcastInDim S100000x128 ![] bcast_S_S100000x128 (constant (F := Ideal) S_ .f32 0x00000000#32) i = zeroE := rfl

/-- A product plus a laid-down row, at entry `(r, c)`, is `linRow` of row `r`. -/
private theorem lin_apply (X : FVec Ideal S100000x128 .f32) (w : FVec Ideal S128x128 .f32) (b : FVec Ideal S1x128 .f32)
    (r : Fin 100000) (c : Fin 128) :
    addf (Host.dotGeneral dot_S100000x128_S128x128_S100000x128_1_0_0_1_n_n none X w)
        (broadcastInDim S100000x128 ![0, 1] bcast_S1x128_S100000x128_0_1 b) (ix2 r c)
      = linRow (rowOf X r) w b c :=
  congrArg₂ (· + ·) (dot_apply X w r c) (row_apply b r c)

/-- A vector as a 1 × 128 row: by broadcast along the second axis, or by reshape. -/
theorem row_eq (b : FVec Ideal S128 .f32) (hc : S128.ShapeCasts S1x128) :
    broadcastInDim S1x128 ![1] bcast_S128_S1x128_1 b = shapeCast S1x128 b hc := by
  funext i
  refine (broadcastInDim_apply _ bcast_S128_S1x128_1 b i (fun a => i a.succ) (fun a => match a with
    | ⟨0, _⟩ => by show (i 1).val = if (128 : Nat) = 1 then 0 else (i 1).val; rw [if_neg (by decide)])).trans ?_
  exact (shapeCast_addUnit_apply ![128] b hc i).symm

/-- The product plus a laid-down row. -/
theorem lin_eq (X : FVec Ideal S100000x128 .f32) (w : FVec Ideal S128x128 .f32) (b : FVec Ideal S1x128 .f32) :
    addf (Host.dotGeneral dot_S100000x128_S128x128_S100000x128_1_0_0_1_n_n none X w)
        (broadcastInDim S100000x128 ![0, 1] bcast_S1x128_S100000x128_0_1 b)
      = Lin X w b := by
  funext i
  obtain ⟨r, c, rfl⟩ : ∃ (r : Fin 100000) (c : Fin 128), i = ix2 r c := ⟨i 0, i 1, eq_ix2 i⟩
  exact lin_apply X w b r c

/-- … and the maximum with zero. -/
theorem linRelu_eq (X : FVec Ideal S100000x128 .f32) (w : FVec Ideal S128x128 .f32) (b : FVec Ideal S1x128 .f32) :
    maximumf (addf (Host.dotGeneral dot_S100000x128_S128x128_S100000x128_1_0_0_1_n_n none X w)
        (broadcastInDim S100000x128 ![0, 1] bcast_S1x128_S100000x128_0_1 b))
        (broadcastInDim S100000x128 ![] bcast_S_S100000x128 (constant S_ .f32 0x00000000#32))
      = LinRelu X w b := by
  funext i
  obtain ⟨r, c, rfl⟩ : ∃ (r : Fin 100000) (c : Fin 128), i = ix2 r c := ⟨i 0, i 1, eq_ix2 i⟩
  exact congrArg₂ max (lin_apply X w b r c) (zero_apply (ix2 r c))

/-- A graph-convolution layer's stretch: sum, product, row; scale and shift; maximum with zero; product, row. -/
theorem gin_eq (H A : FVec Ideal S100000x128 .f32) (w1 : FVec Ideal S128x128 .f32) (b1 sc be : FVec Ideal S1x128 .f32)
    (w2 : FVec Ideal S128x128 .f32) (b2 : FVec Ideal S1x128 .f32) :
    addf (Host.dotGeneral dot_S100000x128_S128x128_S100000x128_1_0_0_1_n_n none
        (maximumf (addf (mulf (addf (Host.dotGeneral dot_S100000x128_S128x128_S100000x128_1_0_0_1_n_n none (addf H A) w1)
            (broadcastInDim S100000x128 ![0, 1] bcast_S1x128_S100000x128_0_1 b1))
            (broadcastInDim S100000x128 ![0, 1] bcast_S1x128_S100000x128_0_1 sc))
            (broadcastInDim S100000x128 ![0, 1] bcast_S1x128_S100000x128_0_1 be))
          (broadcastInDim S100000x128 ![] bcast_S_S100000x128 (constant S_ .f32 0x00000000#32))) w2)
        (broadcastInDim S100000x128 ![0, 1] bcast_S1x128_S100000x128_0_1 b2)
      = Gin H A w1 b1 sc be w2 b2 := by
  funext i
  obtain ⟨r, c, rfl⟩ : ∃ (r : Fin 100000) (c : Fin 128), i = ix2 r c := ⟨i 0, i 1, eq_ix2 i⟩
  -- the outer product and row: `linRow` of row `r` of the inner array
  refine (lin_apply _ w2 b2 r c).trans ?_
  -- row `r` of the inner array, entry by entry
  refine congrArg (fun xr => linRow xr w2 b2 c) (funext fun k => ?_)
  exact congrArg₂ max
    (congrArg₂ (· + ·)
      (congrArg₂ (· * ·) (lin_apply (addf H A) w1 b1 r k) (row_apply sc r k))
      (row_apply be r k))
    (zero_apply (ix2 r k))

end Cert.Gin.RefPat

end
-- ==== Proof.RefValue.lean ====
/-
  The reference's result is the network at the plain gather: its three kinds of dense stretch are `LinRelu`, `Gin` and
  `Lin` (the row functions), its bias rows the rows the other program makes by reshape, and everything else — the
  slices, the transposes, the wrapped gather along the sources, the sums into the targets and into the graphs — is the
  network's own text.
-/
import proofs.«427842_j14078902796336_1_alg».proof.Proof.RefSide
import proofs.«427842_j14078902796336_1_alg».proof.Proof.RefPat
import proofs.«427842_j14078902796336_1_alg».proof.Proof.Net

set_option maxRecDepth 16384

noncomputable section

namespace Cert.Gin

open Idealize.ShloMosaic Cert.ReferenceIdeal Cert.ReferenceIdeal.Read

/-- The input transform's stretch: a product, a laid-down row, the maximum with zero. -/
theorem stage0 (x0 : FVec Ideal S100000x128 .f32) (x3 : FVec Ideal S128x128 .f32) (x4 : FVec Ideal S128 .f32) :
    val_main_v9 (F := Ideal) x0 x3 x4
      = LinRelu x0 (transpose S128x128 [1, 0] x3 Cert.KernelIdeal.Gen.transposes_S128x128_S128x128_1_0) (shapeCast S1x128 x4 Cert.KernelIdeal.Gen.shapeCasts_S128_S1x128) := by
  unfold val_main_v9 val_main_call0_v0 val_main_call0_cst val_main_v8 val_main_v7 val_main_v6 val_main_v5 val_main_v4
  simp only [RefPat.row_eq _ Cert.KernelIdeal.Gen.shapeCasts_S128_S1x128]
  rw [RefPat.linRelu_eq]

/-- Layer 1's stretch, from the array before it: the gather along the sources, the sum into the targets, and `Gin`
    with the layer's slices. -/
theorem stage1 (x0 : FVec Ideal S100000x128 .f32) (x1 : IVec S2x1600000 32) (x3 : FVec Ideal S128x128 .f32) (x4 : FVec Ideal S128 .f32) (x7 : FVec Ideal S3x128x128 .f32) (x8 x9 x10 : FVec Ideal S3x128 .f32) (x11 : FVec Ideal S3x128x128 .f32) (x12 : FVec Ideal S3x128 .f32) :
    val_main_v52 (F := Ideal) x0 x1 x3 x4 x7 x8 x9 x10 x11 x12
      = layer (fun H => gatherRows H (srcOf x1)) (dstOf x1) (val_main_v9 (F := Ideal) x0 x3 x4)
          (matT x7 ![0, 0, 0] Cert.KernelIdeal.Gen.slices_S3x128x128_S1x128x128_0_0_0) (rowK x8 ![0, 0] Cert.KernelIdeal.Gen.slices_S3x128_S1x128_0_0)
          (rowK (scaleOf x9) ![0, 0] Cert.KernelIdeal.Gen.slices_S3x128_S1x128_0_0) (rowK x10 ![0, 0] Cert.KernelIdeal.Gen.slices_S3x128_S1x128_0_0)
          (matT x11 ![0, 0, 0] Cert.KernelIdeal.Gen.slices_S3x128x128_S1x128x128_0_0_0) (rowK x12 ![0, 0] Cert.KernelIdeal.Gen.slices_S3x128_S1x128_0_0) := by
  unfold val_main_v52 val_main_v51 val_main_v50 val_main_v49 val_main_v48 val_main_v47 val_main_v46 val_main_v45 val_main_v44 val_main_v43 val_main_call1_v0 val_main_call1_cst val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_c val_main_c_0 val_main_cst_1 val_main_v12 val_main_v11 val_main_v10 val_main_cst val_main_v3 val_main_v2 val_main_v1 val_main_v0
  generalize val_main_v9 (F := Ideal) x0 x3 x4 = H
  simp only [RefPat.row_eq _ Cert.KernelIdeal.Gen.shapeCasts_S128_S1x128]
  rw [RefPat.gin_eq]
  rfl

/-- Layer 2's stretch, from the array before it: the gather along the sources, the sum into the targets, and `Gin`
    with the layer's slices. -/
theorem stage2 (x0 : FVec Ideal S100000x128 .f32) (x1 : IVec S2x1600000 32) (x3 : FVec Ideal S128x128 .f32) (x4 : FVec Ideal S128 .f32) (x7 : FVec Ideal S3x128x128 .f32) (x8 x9 x10 : FVec Ideal S3x128 .f32) (x11 : FVec Ideal S3x128x128 .f32) (x12 : FVec Ideal S3x128 .f32) :
    val_main_v92 (F := Ideal) x0 x1 x3 x4 x7 x8 x9 x10 x11 x12
      = layer (fun H => gatherRows H (srcOf x1)) (dstOf x1) (val_main_v52 (F := Ideal) x0 x1 x3 x4 x7 x8 x9 x10 x11 x12)
          (matT x7 ![1, 0, 0] Cert.KernelIdeal.Gen.slices_S3x128x128_S1x128x128_1_0_0) (rowK x8 ![1, 0] Cert.KernelIdeal.Gen.slices_S3x128_S1x128_1_0)
          (rowK (scaleOf x9) ![1, 0] Cert.KernelIdeal.Gen.slices_S3x128_S1x128_1_0) (rowK x10 ![1, 0] Cert.KernelIdeal.Gen.slices_S3x128_S1x128_1_0)
          (matT x11 ![1, 0, 0] Cert.KernelIdeal.Gen.slices_S3x128x128_S1x128x128_1_0_0) (rowK x12 ![1, 0] Cert.KernelIdeal.Gen.slices_S3x128_S1x128_1_0) := by
  unfold val_main_v92 val_main_v91 val_main_v90 val_main_v89 val_main_v88 val_main_v87 val_main_v86 val_main_v85 val_main_v84 val_main_v83 val_main_call2_v0 val_main_call2_cst val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_c_2 val_main_c_3 val_main_cst_4 val_main_v12 val_main_v11 val_main_v10 val_main_cst val_main_v3 val_main_v2 val_main_v1 val_main_v0
  generalize val_main_v52 (F := Ideal) x0 x1 x3 x4 x7 x8 x9 x10 x11 x12 = H
  simp only [RefPat.row_eq _ Cert.KernelIdeal.Gen.shapeCasts_S128_S1x128]
  rw [RefPat.gin_eq]
  rfl

/-- Layer 3's stretch, from the array before it: the gather along the sources, the sum into the targets, and `Gin`
    with the layer's slices. -/
theorem stage3 (x0 : FVec Ideal S100000x128 .f32) (x1 : IVec S2x1600000 32) (x3 : FVec Ideal S128x128 .f32) (x4 : FVec Ideal S128 .f32) (x7 : FVec Ideal S3x128x128 .f32) (x8 x9 x10 : FVec Ideal S3x128 .f32) (x11 : FVec Ideal S3x128x128 .f32) (x12 : FVec Ideal S3x128 .f32) :
    val_main_v132 (F := Ideal) x0 x1 x3 x4 x7 x8 x9 x10 x11 x12
      = layer (fun H => gatherRows H (srcOf x1)) (dstOf x1) (val_main_v92 (F := Ideal) x0 x1 x3 x4 x7 x8 x9 x10 x11 x12)
          (matT x7 ![2, 0, 0] Cert.KernelIdeal.Gen.slices_S3x128x128_S1x128x128_2_0_0) (rowK x8 ![2, 0] Cert.KernelIdeal.Gen.slices_S3x128_S1x128_2_0)
          (rowK (scaleOf x9) ![2, 0] Cert.KernelIdeal.Gen.slices_S3x128_S1x128_2_0) (rowK x10 ![2, 0] Cert.KernelIdeal.Gen.slices_S3x128_S1x128_2_0)
          (matT x11 ![2, 0, 0] Cert.KernelIdeal.Gen.slices_S3x128x128_S1x128x128_2_0_0) (rowK x12 ![2, 0] Cert.KernelIdeal.Gen.slices_S3x128_S1x128_2_0) := by
  unfold val_main_v132 val_main_v131 val_main_v130 val_main_v129 val_main_v128 val_main_v127 val_main_v126 val_main_v125 val_main_v124 val_main_v123 val_main_call3_v0 val_main_call3_cst val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_c_5 val_main_c_6 val_main_cst_7 val_main_v12 val_main_v11 val_main_v10 val_main_cst val_main_v3 val_main_v2 val_main_v1 val_main_v0
  generalize val_main_v92 (F := Ideal) x0 x1 x3 x4 x7 x8 x9 x10 x11 x12 = H
  simp only [RefPat.row_eq _ Cert.KernelIdeal.Gen.shapeCasts_S128_S1x128]
  rw [RefPat.gin_eq]
  rfl

/-- The reference's last stage, as the network at the plain gather. -/
theorem ref_value (x0 : FVec Ideal Cert.ReferenceIdeal.S100000x128 .f32) (x1 : IVec Cert.ReferenceIdeal.S2x1600000 32) (x2 : IVec Cert.ReferenceIdeal.S100000 32) (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32) (x7 : FVec Ideal Cert.ReferenceIdeal.S3x128x128 .f32) (x8 x9 x10 : FVec Ideal Cert.ReferenceIdeal.S3x128 .f32) (x11 : FVec Ideal Cert.ReferenceIdeal.S3x128x128 .f32) (x12 : FVec Ideal Cert.ReferenceIdeal.S3x128 .f32) :
    Cert.ReferenceIdeal.Read.val_main_v140 (F := Ideal) x0 x1 x2 x3 x4 x5 x6 x7 x8 x9 x10 x11 x12
      = net (fun H => gatherRows H (srcOf x1)) x0 x1 x2 x3 x4 x5 x6 x7 x8 x9 x10 x11 x12 := by
  unfold val_main_v140 val_main_v139 val_main_v138 val_main_cst_8 val_main_v137 val_main_v136 val_main_v135 val_main_v134 val_main_v133
  rw [stage3, stage2, stage1, stage0]
  simp only [RefPat.row_eq _ Cert.KernelIdeal.Gen.shapeCasts_S128_S1x128]
  rw [RefPat.lin_eq]
  rfl

end Cert.Gin

end
-- ==== Proof.Mask.lean ====
/-
  Where every source index lies in `[-100000, 100000)`, the gather that fills out-of-range rows is the plain gather.

  A word `s` in that range wraps (`s + 100000` where negative) into `[0, 99999]`; so both range tests on the wrapped
  index hold at every edge, their conjunction reduced along the column's one entry is 1, and the select keeps the
  gathered row everywhere.
-/
import proofs.«427842_j14078902796336_1_alg».proof.Proof.Net
import Idealize.ShloMosaic.Lib.ReduceAll
import Idealize.ShloMosaic.Lib.StableHlo.Predicate

noncomputable section

namespace Cert.Gin

open Idealize.ShloMosaic Cert.KernelIdeal Cert.KernelIdeal.Gen

/-- A left fold by `and` that starts at 1 and meets only 1s ends at 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, IntOp.andi_eq_one.2 ⟨rfl, rfl⟩]
    exact foldl_andi_one f hf l

/-- A reduce by `and` from the constant 1 over an array of 1s is 1 at every result index. -/
private theorem reduce_andi_one {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_one x hx _

/-- What holds of every entry of an array holds of every entry of its broadcast. -/
private theorem bcast_forall {α : Type} {s t : Shape} (dims : Fin s.rank → Fin t.rank) (h : s.BroadcastsInDim t dims)
    (x : s.Idx → α) (P : α → Prop) (hx : ∀ k, P (x k)) (j : t.Idx) : P (broadcastInDim t dims h x j) :=
  hx _

/-- One word: `w` with signed value in `[-100000, 100000)`, moved up by 100000 where negative, has signed value in
    `[0, 99999]`. The sum `w + 100000` of a negative such `w` lies in `[0, 100000)`, far from the 32-bit wrap. -/
private theorem wrap_word_range (w : BitVec 32) (h0 : (-100000 : ℤ) ≤ w.toInt) (h1 : w.toInt < 100000) :
    (0 : ℤ) ≤ (Scalar.select (IntOp.cmpi .slt w 0#32) (IntOp.addi w 100000#32) w).toInt ∧
      (Scalar.select (IntOp.cmpi .slt w 0#32) (IntOp.addi w 100000#32) w).toInt ≤ 99999 := by
  have z : (0#32 : BitVec 32).toInt = 0 := by decide
  have c : (100000#32 : BitVec 32).toInt = 100000 := by decide
  unfold Scalar.select
  by_cases hneg : w.toInt < 0
  · have hc : IntOp.cmpi .slt w 0#32 = 1 := IntOp.cmpi_slt.2 (by rw [z]; exact hneg)
    rw [if_pos hc]
    show (0 : ℤ) ≤ (w + 100000#32).toInt ∧ (w + 100000#32).toInt ≤ 99999
    rw [BitVec.toInt_add, c]
    unfold Int.bmod
    dsimp only
    omega
  · have hc : ¬ IntOp.cmpi .slt w 0#32 = 1 := fun h => hneg (by have := IntOp.cmpi_slt.1 h; rwa [z] at this)
    rw [if_neg hc]
    omega

/-- The wrapped index at every edge lies in `[0, 99999]`. -/
private theorem wrapIdx_range (s : IVec S1600000 32) (hs : ∀ i, (-100000 : ℤ) ≤ (s i).toInt ∧ (s i).toInt < 100000)
    (k : S1600000.Idx) : (0 : ℤ) ≤ (wrapIdx s k).toInt ∧ (wrapIdx s k).toInt ≤ 99999 :=
  wrap_word_range (s k) (hs k).1 (hs k).2

/-- So does every entry of the column of wrapped indices. -/
private theorem idxCol_range (s : IVec S1600000 32) (hs : ∀ i, (-100000 : ℤ) ≤ (s i).toInt ∧ (s i).toInt < 100000)
    (i : S1600000x1.Idx) : (0 : ℤ) ≤ (idxCol s i).toInt ∧ (idxCol s i).toInt ≤ 99999 :=
  bcast_forall _ _ (wrapIdx s) (fun w => (0 : ℤ) ≤ w.toInt ∧ w.toInt ≤ 99999) (wrapIdx_range s hs) i

/-- Both range tests hold at every entry of the column of wrapped indices. -/
private theorem colTest_one (s : IVec S1600000 32) (hs : ∀ i, (-100000 : ℤ) ≤ (s i).toInt ∧ (s i).toInt < 100000)
    (i : S1600000x1.Idx) :
    andi (cmpi .sge (idxCol s) (broadcastInDim S1600000x1 ![] bcast_S_S1600000x1 (constantI S_ 32 0#32)))
      (cmpi .sle (idxCol s) (broadcastInDim S1600000x1 ![0, 1] bcast_S1x1_S1600000x1_0_1
        (broadcastInDim S1x1 ![1] bcast_S1_S1x1_1 (constantI S1 32 99999#32)))) i = 1#1 := by
  have z : (0#32 : BitVec 32).toInt = 0 := by decide
  have c : (99999#32 : BitVec 32).toInt = 99999 := by decide
  have e0 : broadcastInDim S1600000x1 ![] bcast_S_S1600000x1 (constantI S_ 32 0#32) i = 0#32 := rfl
  have e1 : broadcastInDim S1600000x1 ![0, 1] bcast_S1x1_S1600000x1_0_1
      (broadcastInDim S1x1 ![1] bcast_S1_S1x1_1 (constantI S1 32 99999#32)) i = 99999#32 := rfl
  show IntOp.andi (IntOp.cmpi .sge (idxCol s i) _) (IntOp.cmpi .sle (idxCol s i) _) = 1#1
  rw [e0, e1]
  refine IntOp.andi_eq_one.2 ⟨IntOp.cmpi_sge.2 ?_, IntOp.cmpi_sle.2 ?_⟩
  · rw [z]; exact (idxCol_range s hs i).1
  · rw [c]; exact (idxCol_range s hs i).2

/-- So the mask is 1 at every edge and column. -/
private theorem takeMask_one (s : IVec S1600000 32) (hs : ∀ i, (-100000 : ℤ) ≤ (s i).toInt ∧ (s i).toInt < 100000)
    (j : S1600000x128.Idx) : takeMask s j = 1#1 := by
  unfold takeMask
  exact bcast_forall _ _ _ (fun b => b = 1#1) (reduce_andi_one _ _ _ (colTest_one s hs)) j

/-- With every source in `[-100000, 100000)` no row is overwritten. -/
theorem takeRows_eq_gatherRows (H : FVec Ideal S100000x128 .f32) (s : IVec S1600000 32)
    (hs : ∀ i, (-100000 : ℤ) ≤ (s i).toInt ∧ (s i).toInt < 100000) : takeRows H s = gatherRows H s := by
  funext j
  unfold takeRows select
  rw [takeMask_one s hs j]
  rfl

end Cert.Gin

end
-- ==== Proof.PreDecode.lean ====
/-
  What the precondition says of the edges' sources: the last conjunct, `all((src ≥ -100000) ∧ (src < 100000))`, read back
  entry by entry as a bound on each source word's signed value.
-/
import proofs.«427842_j14078902796336_1_alg».proof.Proof.Gen.Pre_finite_inputs
import proofs.«427842_j14078902796336_1_alg».proof.Proof.Net
import Idealize.ShloMosaic.Lib.ReduceAll

noncomputable section

namespace Cert.Gin

open Idealize.ShloMosaic

/-- Under the precondition every source index lies in `[-100000, 100000)`. -/
theorem src_in_range (x0 : FVec Ideal Cert.KernelIdeal.S100000x128 .f32) (x1 : IVec Cert.KernelIdeal.S2x1600000 32) (x2 : IVec Cert.KernelIdeal.S100000 32) (x3 : FVec Ideal Cert.KernelIdeal.S128x128 .f32) (x4 : FVec Ideal Cert.KernelIdeal.S128 .f32) (x5 : FVec Ideal Cert.KernelIdeal.S128x128 .f32) (x6 : FVec Ideal Cert.KernelIdeal.S128 .f32) (x7 : FVec Ideal Cert.KernelIdeal.S3x128x128 .f32) (x8 x9 x10 : FVec Ideal Cert.KernelIdeal.S3x128 .f32) (x11 : FVec Ideal Cert.KernelIdeal.S3x128x128 .f32) (x12 : FVec Ideal Cert.KernelIdeal.S3x128 .f32)
    (h : Cert.Pre_finite_inputs.fn (F := Ideal) x0 x1 x2 x3 x4 x5 x6 x7 x8 x9 x10 x11 x12 = (fun _ => 1#1)) :
    ∀ i, (-100000 : ℤ) ≤ (srcOf x1 i).toInt ∧ (srcOf x1 i).toInt < 100000 := by
  intro i
  haveI : Subsingleton Cert.Pre_finite_inputs.S_.Idx := ⟨fun a b => funext fun d => d.elim0⟩
  have hlo : (4294867296#32 : BitVec 32).toInt = -100000 := by decide
  have hhi : (100000#32 : BitVec 32).toInt = 100000 := by decide
  have h0 := congrFun h ValueIdx.ix0
  dsimp only [Cert.Pre_finite_inputs.fn, Cert.Pre_finite_inputs.fn_part1, Cert.Pre_finite_inputs.fn_part2,
    Cert.Pre_finite_inputs.fn_part3] at h0
  -- the last conjunct of the conjunction: the reduce by `and` of the two range tests over all edges
  have h1 := (IntOp.andi_eq_one.1 h0).2
  have h2 := Host.reduce_andi_all _ _ _ _ _ h1 i
  obtain ⟨ha, hb⟩ := IntOp.andi_eq_one.1 h2
  have hA : (4294867296#32 : BitVec 32).toInt ≤ (srcOf x1 i).toInt := IntOp.cmpi_sge.1 ha
  have hB : (srcOf x1 i).toInt < (100000#32 : BitVec 32).toInt := IntOp.cmpi_slt.1 hb
  rw [hlo] at hA
  rw [hhi] at hB
  exact ⟨hA, hB⟩

end Cert.Gin

end
-- ==== Proof.lean ====
/-
  A three-layer graph network on 100000 nodes, 1600000 edges and 512 graphs: an input transform
  `max(x · t1ᵀ + b, 0)`; three graph-convolution layers, each adding to every node's row the sum of its in-neighbours' rows
  and applying `· W1ᵀ + b1`, a scale and shift, `max(·, 0)`, `· W2ᵀ + b2`; an output transform `· t2ᵀ + b`; and the sum
  of the node rows into their graphs' rows.

  The kernel program runs the five dense stretches as five tiled calls (twenty blocks of 5000 rows each) and leaves the
  gathers and the sums to the host; the reference runs everything on the host.  Read at the ideal values, each call's
  output array is the same row-by-row function of its operands as the reference's stretch (`LinRelu`, `Gin`, `Lin`): a
  row times a matrix is the same sum whether the rows come twenty blocks at a time or all at once, and a change of
  float format is the identity.  The one difference is how rows are gathered along the edges' sources: the reference
  gathers at the wrapped index, the kernel program gathers likewise and then overwrites with a filler word every row
  whose wrapped index falls outside `[0, 99999]`.  The precondition's last conjunct — every source in
  `[-100000, 100000)`, the range in which the reference's own indexing is in bounds — makes the wrapped index land in
  `[0, 99999]`, so nothing is overwritten and the two programs compute one network (`net`) of the same arguments.
  No law of arithmetic beyond reading both sides at an index is used, and finiteness of the inputs is not needed.
-/
import proofs.«427842_j14078902796336_1_alg».proof.Defs
import proofs.«427842_j14078902796336_1_alg».proof.Proof.Gen.Kernel
import proofs.«427842_j14078902796336_1_alg».proof.Proof.Gen.Kernel.Frame
import proofs.«427842_j14078902796336_1_alg».proof.Proof.Gen.KernelIdeal
import proofs.«427842_j14078902796336_1_alg».proof.Proof.Gen.KernelIdeal.Frame
import proofs.«427842_j14078902796336_1_alg».proof.Proof.Gen.ReferenceIdeal
import proofs.«427842_j14078902796336_1_alg».proof.Proof.Gen.Pre_finite_inputs
import proofs.«427842_j14078902796336_1_alg».proof.Proof.KRun
import proofs.«427842_j14078902796336_1_alg».proof.Proof.KStages
import proofs.«427842_j14078902796336_1_alg».proof.Proof.RefValue
import proofs.«427842_j14078902796336_1_alg».proof.Proof.Mask
import proofs.«427842_j14078902796336_1_alg».proof.Proof.PreDecode
import Idealize.ShloMosaic.Adequacy
import Idealize.ShloMosaic.Init

noncomputable section

namespace Cert.Proof

open Idealize.ShloMosaic Idealize.SL.Sem

/-- The kernel program as printed runs, and leaves its arguments as launched. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network, at the plain gather along the sources, of the same thirteen arrays: the kernel
    program's filling gather overwrites nothing when every source is in `[-100000, 100000)`. -/
theorem algebraic : Cert.algebraic_KernelIdeal_ReferenceIdeal := by
  intro m ρ m' ρ' hpre hagree
  refine ⟨fun c => Cert.Gin.net (fun H => Cert.Gin.gatherRows H (Cert.Gin.srcOf (m ((c.tc : Thread Cert.KernelIdeal.nD Cert.KernelIdeal.τ).loc Cert.KernelIdeal.main_arg1))))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.RunNamed.run_named (F := Ideal) m ρ)
    rw [Cert.KernelIdeal.RegionValue.kernel_value m ρ c]
    have hr := Cert.Gin.src_in_range _ _ _ _ _ _ _ _ _ _ _ _ _ (hpre c)
    exact congrArg (fun g => Cert.Gin.net g (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (funext fun H => Cert.Gin.takeRows_eq_gatherRows H _ hr)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v140_eq, Cert.Gin.ref_value, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
